-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x64 : Shape := ⟨2, ![1024, 64]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn_part1 {F : FTy → Type} [FloatOps F] (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  main_v18

def fn {F : FTy → Type} [FloatOps F] (main_arg0 : FVec F S8x2048x1024 .f32) (main_arg1 : FVec F S1024x64 .f32) (main_arg2 : FVec F S1024x64 .f32) (main_arg3 : FVec F S1024x64 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S1024x64 .f32 := Host.absf main_arg2
  let main_cst_2 : FVec F S_ .f32 := constant S_ .f32 0x7F800000#32
  let main_v10 : FVec F S1024x64 .f32 := broadcastInDim S1024x64 ![] bcast_S_S1024x64 main_cst_2
  let main_v11 : IVec S1024x64 1 := cmpf .olt main_v9 main_v10
  let main_c_3 : IVec S_ 1 := constantI S_ 1 1#1
  let main_v12 : IVec S_ 1 := (fun x v => Host.reduce IntOp.andi x v reducesTo_S1024x64_S_d0_1 h_S_) main_v11 main_c_3
  let main_v13 : IVec S_ 1 := andi main_v8 main_v12
  let main_v14 : FVec F S1024x64 .f32 := Host.absf main_arg3
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_v13 main_v16
-- ==== Kernel.lean ====
abbrev S8x2048x1024 : Shape := ⟨3, ![8, 2048, 1024]⟩
abbrev S1024x64 : Shape := ⟨2, ![1024, 64]⟩
abbrev S1024x192 : Shape := ⟨2, ![1024, 192]⟩
abbrev S8x2048x64 : Shape := ⟨3, ![8, 2048, 64]⟩
abbrev S1x2048x1024 : Shape := ⟨3, ![1, 2048, 1024]⟩
abbrev S1x2048x64 : Shape := ⟨3, ![1, 2048, 64]⟩
abbrev S2048x64 : Shape := ⟨2, ![2048, 64]⟩
abbrev S2048x1024 : Shape := ⟨2, ![2048, 1024]⟩
abbrev S2048x192 : Shape := ⟨2, ![2048, 192]⟩
abbrev S512x64 : Shape := ⟨2, ![512, 64]⟩
abbrev S512x1 : Shape := ⟨2, ![512, 1]⟩
abbrev S64x512 : Shape := ⟨2, ![64, 512]⟩
abbrev S512x512 : Shape := ⟨2, ![512, 512]⟩
abbrev S512 : Shape := ⟨1, ![512]⟩
abbrev S1x512x64 : Shape := ⟨3, ![1, 512, 64]⟩

abbrev nBuf : Space → Nat
  | .hbm => 6
  | .vmem => 8
  | .smem => 0
  | _ => 0

abbrev bufTy : (tb : Table) → Fin (tcTables nBuf tb) → BufTy
  | .hbm, ⟨0, _⟩ => ⟨S8x2048x1024, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S1024x192, .f32⟩
  | .hbm, ⟨5, _⟩ => ⟨S8x2048x64, .f32⟩
  | .local _ .vmem, ⟨0, _⟩ => ⟨S1x2048x1024, .f32⟩
  | .local _ .vmem, ⟨1, _⟩ => ⟨S1x2048x1024, .f32⟩
  | .local _ .vmem, ⟨2, _⟩ => ⟨S1024x192, .f32⟩
  | .local _ .vmem, ⟨3, _⟩ => ⟨S1x2048x64, .f32⟩
  | .local _ .vmem, ⟨4, _⟩ => ⟨S1x2048x64, .f32⟩
  | .local _ .vmem, ⟨5, _⟩ => ⟨S2048x64, .bf16⟩
  | .local _ .vmem, ⟨6, _⟩ => ⟨S2048x64, .bf16⟩
  | .local _ .vmem, ⟨7, _⟩ => ⟨S2048x64, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  concatenates_S1024x64_S1024x64_S1024x64_S1024x192_d1 : Shape.Concatenates [S1024x64, S1024x64, S1024x64] S1024x192 1
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  bitsLt_bf16_f32 : FTy.bits .bf16 < FTy.bits .f32
  inb_S1024x192_S1024x192_0_0 : ∀ a, (![0, 0] : Fin 2 → Nat) a + S1024x192.size a ≤ S1024x192.size a
  h_S1024x192 : 0 < S1024x192.numel
  shapeCasts_S1024x192_S1024x192 : S1024x192.ShapeCasts S1024x192
  slices_S2048x192_o0_0_S2048x64 : S2048x192.Slices ![0, 0] S2048x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  packedbf16_S2048x64_S2048x64_0_0 : (Rect.unit (s := S2048x64) ![0, 0] S2048x64.size inb_S2048x64_S2048x64_0_0).PackedRows (EltTy.packing .bf16)
  slices_S2048x192_o0_64_S2048x64 : S2048x192.Slices ![0, 64] S2048x64
  slices_S2048x192_o0_128_S2048x64 : S2048x192.Slices ![0, 128] S2048x64
  inb_S2048x64_S512x64_0_0 : ∀ a, (![0, 0] : Fin 2 → Nat) a + S512x64.size a ≤ S2048x64.size a
  h_S512x64 : 0 < S512x64.numel
  transposes_S512x64_p1_0_S64x512 : S512x64.Transposes [1, 0] S64x512
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  broadcasts_S512x1_S512x512 : S512x1.Broadcasts S512x512
  broadcasts_S512x1_S512x64 : S512x1.Broadcasts S512x64
  inb_S1x2048x64_S1x512x64_0_0_0 : ∀ a, (![0, 0, 0] : Fin 3 → Nat) a + S1x512x64.size a ≤ S1x2048x64.size a
  h_S1x512x64 : 0 < S1x512x64.numel
  shapeCasts_S1x512x64_S512x64 : S1x512x64.ShapeCasts S512x64
  shapeCasts_S512x64_S1x512x64 : S512x64.ShapeCasts S1x512x64
  inb_S2048x64_S512x64_512_0 : ∀ a, (![512, 0] : Fin 2 → Nat) a + S512x64.size a ≤ S2048x64.size a
  inb_S1x2048x64_S1x512x64_0_512_0 : ∀ a, (![0, 512, 0] : Fin 3 → Nat) a + S1x512x64.size a ≤ S1x2048x64.size a
  inb_S2048x64_S512x64_1024_0 : ∀ a, (![1024, 0] : Fin 2 → Nat) a + S512x64.size a ≤ S2048x64.size a
  inb_S1x2048x64_S1x512x64_0_1024_0 : ∀ a, (![0, 1024, 0] : Fin 3 → Nat) a + S1x512x64.size a ≤ S1x2048x64.size a
  inb_S2048x64_S512x64_1536_0 : ∀ a, (![1536, 0] : Fin 2 → Nat) a + S512x64.size a ≤ S2048x64.size a
  inb_S1x2048x64_S1x512x64_0_1536_0 : ∀ a, (![0, 1536, 0] : Fin 3 → Nat) a + S1x512x64.size a ≤ S1x2048x64.size a
  dot_S2048x1024_S1024x192_S2048x192_1_0_0_1_n_n_wf : DotDims.WF S2048x1024 S1024x192 S2048x192 [1] [0] [0] [1] [] []
  dot_S512x64_S64x512_S512x512_1_0_0_1_n_n_wf : DotDims.WF S512x64 S64x512 S512x512 [1] [0] [0] [1] [] []
  dot_S512x512_S512x64_S512x64_1_0_0_1_n_n_wf : DotDims.WF S512x512 S512x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S8x2048x1024.size a
  hwx0_0 : ∀ i : grid0.Coords, EltTy.bits .f32 = 32 ∨ (Rect.block (s := S8x2048x1024) S1x2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x192.size a ≤ S1024x192.size a
  hwx0_1 : ∀ i : grid0.Coords, EltTy.bits .f32 = 32 ∨ (Rect.block (s := S1024x192) S1024x192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S8x2048x64.size a
  hwx0_2 : ∀ i : grid0.Coords, EltTy.bits .f32 = 32 ∨ (Rect.block (s := S8x2048x64) S1x2048x64.size (cc0_transform_2 i) (hinb0_2 i)).WholeWords (EltTy.packing .f32)

variable [Facts₀]

def dot_S2048x1024_S1024x192_S2048x192_1_0_0_1_n_n : DotDims S2048x1024 S1024x192 S2048x192 where
  lhsContracting := [1]
  rhsContracting := [0]
  lhsNonContracting := [0]
  rhsNonContracting := [1]
  lhsBatch := []
  rhsBatch := []
  wf := dot_S2048x1024_S1024x192_S2048x192_1_0_0_1_n_n_wf
def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S1024x64 : Shape := ⟨2, ![1024, 64]⟩
abbrev S8x2048x64 : Shape := ⟨3, ![8, 2048, 64]⟩
abbrev S8x2048x2048 : Shape := ⟨3, ![8, 2048, 2048]⟩
abbrev S_ : Shape := ⟨0, ![]⟩
abbrev S2048x2048 : Shape := ⟨2, ![2048, 2048]⟩
abbrev S8x2048 : Shape := ⟨2, ![8, 2048]⟩
abbrev S8x2048x1 : Shape := ⟨3, ![8, 2048, 1]⟩

abbrev nBuf : Space → Nat
  | .hbm => 42
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S8x2048x64, .f32⟩
  | .hbm, ⟨5, _⟩ => ⟨S8x2048x64, .f32⟩
  | .hbm, ⟨6, _⟩ => ⟨S8x2048x64, .f32⟩
  | .hbm, ⟨7, _⟩ => ⟨S8x2048x2048, .f32⟩
  | .hbm, ⟨8, _⟩ => ⟨S_, .f32⟩
  | .hbm, ⟨9, _⟩ => ⟨S8x2048x2048, .f32⟩
  | .hbm, ⟨10, _⟩ => ⟨S8x2048x2048, .f32⟩
  | .hbm, ⟨11, _⟩ => ⟨S_, .i1⟩
  | .hbm, ⟨12, _⟩ => ⟨S2048x2048, .i1⟩
  | .hbm, ⟨13, _⟩ => ⟨S2048x2048, .i32⟩
  | .hbm, ⟨14, _⟩ => ⟨S_, .i32⟩
  | .hbm, ⟨15, _⟩ => ⟨S2048x2048, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S_, .i1⟩
  | .hbm, ⟨20, _⟩ => ⟨S2048x2048, .i1⟩
  | .hbm, ⟨21, _⟩ => ⟨S2048x2048, .i1⟩
  | .hbm, ⟨22, _⟩ => ⟨S_, .f32⟩
  | .hbm, ⟨23, _⟩ => ⟨S_, .f32⟩
  | .hbm, ⟨24, _⟩ => ⟨S8x2048x2048, .i1⟩
  | .hbm, ⟨25, _⟩ => ⟨S8x2048x2048, .f32⟩
  | .hbm, ⟨26, _⟩ => ⟨S8x2048x2048, .f32⟩
  | .hbm, ⟨27, _⟩ => ⟨S_, .f32⟩
  | .hbm, ⟨28, _⟩ => ⟨S8x2048, .f32⟩
  | .hbm, ⟨29, _⟩ => ⟨S_, .f32⟩
  | .hbm, ⟨30, _⟩ => ⟨S8x2048, .f32⟩
  | .hbm, ⟨31, _⟩ => ⟨S8x2048, .f32⟩
  | .hbm, ⟨32, _⟩ => ⟨S8x2048x1, .f32⟩
  | .hbm, ⟨33, _⟩ => ⟨S8x2048x2048, .f32⟩
  | .hbm, ⟨34, _⟩ => ⟨S8x2048x2048, .f32⟩
  | .hbm, ⟨35, _⟩ => ⟨S8x2048x2048, .f32⟩
  | .hbm, ⟨36, _⟩ => ⟨S_, .f32⟩
  | .hbm, ⟨37, _⟩ => ⟨S8x2048, .f32⟩
  | .hbm, ⟨38, _⟩ => ⟨S8x2048x1, .f32⟩
  | .hbm, ⟨39, _⟩ => ⟨S8x2048x2048, .f32⟩
  | .hbm, ⟨40, _⟩ => ⟨S8x2048x2048, .f32⟩
  | .hbm, ⟨41, _⟩ => ⟨S8x2048x64, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_0 : Ref sig .tc := ⟨.hbm, 19, rfl⟩
abbrev main_call0_v5 : Ref sig .tc := ⟨.hbm, 20, rfl⟩
abbrev main_v7 : Ref sig .tc := ⟨.hbm, 21, rfl⟩
abbrev main_cst_0 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  bcast_S_S2048x2048 : S_.BroadcastsInDim S2048x2048 (![] : Fin 0 → Fin S2048x2048.rank)
  bcast_S2048x2048_S8x2048x2048_1_2 : S2048x2048.BroadcastsInDim S8x2048x2048 (![1, 2] : Fin 2 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x64_S8x2048x64_2_0_01_1_n_n_wf : DotDims.WF S8x2048x1024 S1024x64 S8x2048x64 [2] [0] [0, 1] [1] [] []
  dot_S8x2048x64_S8x2048x64_S8x2048x2048_2_2_1_1_0_0_wf : DotDims.WF S8x2048x64 S8x2048x64 S8x2048x2048 [2] [2] [1] [1] [0] [0]
  dot_S8x2048x2048_S8x2048x64_S8x2048x64_2_1_1_2_0_0_wf : DotDims.WF S8x2048x2048 S8x2048x64 S8x2048x64 [2] [1] [1] [2] [0] [0]

variable [Facts₀]

def dot_S8x2048x1024_S1024x64_S8x2048x64_2_0_01_1_n_n : DotDims S8x2048x1024 S1024x64 S8x2048x64 where
  lhsContracting := [2]
  rhsContracting := [0]
  lhsNonContracting := [0, 1]
  rhsNonContracting := [1]
  lhsBatch := []
  rhsBatch := []
  wf := dot_S8x2048x1024_S1024x64_S8x2048x64_2_0_01_1_n_n_wf
def dot_S8x2048x64_S8x2048x64_S8x2048x2048_2_2_1_1_0_0 : DotDims S8x2048x64 S8x2048x64 S8x2048x2048 where
  lhsContracting := [2]
  rhsContracting := [2]
  lhsNonContracting := [1]
  rhsNonContracting := [1]
  lhsBatch := [0]
  rhsBatch := [0]
  wf := dot_S8x2048x64_S8x2048x64_S8x2048x2048_2_2_1_1_0_0_wf
def dot_S8x2048x2048_S8x2048x64_S8x2048x64_2_1_1_2_0_0 : DotDims S8x2048x2048 S8x2048x64 S8x2048x64 where
  lhsContracting := [2]
  rhsContracting := [1]
  lhsNonContracting := [1]
  rhsNonContracting := [2]
  lhsBatch := [0]
  rhsBatch := [0]
  wf := dot_S8x2048x2048_S8x2048x64_S8x2048x64_2_1_1_2_0_0_wf

class Facts : Prop extends Facts₀ where

variable [Facts]
-- ==== Proof.LibNary3.lean ====
/-
  A StableHLO operation over three operand references: what it leaves at its result reference, with each operand's
  contents read at its own literal reference.
-/
import Idealize.ShloMosaic.Lib.StableHlo.Run

noncomputable section

namespace Idealize.ShloMosaic.StableHlo

variable {τ : Topo} {sig : RefSig} {Val : EltTy → Type}

/-- An operation over a LITERAL family of three operand references (a concatenation of three arrays), read at its
    result reference: its function applied to the family whose member k is the contents found at operand k's own
    reference, in place of the family read through the indexing of the literal vector. The three-operand companion of
    the four-operand statement. -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Idealize.ShloMosaic.StableHlo

end
-- ==== Proof.KitK.lean ====
/-
  The launch side of `Kernel`, up to its one region: what the region finds in each array — the three weight
  arrays and the input as launched, and the fused weight array `main_v0` the one host operation before the region
  leaves there, the three weight arrays side by side along their second axis —, each window's block at a grid point
  read off those contents, and the frame claim's post read off a run to the pipeline library's post.
-/
import proofs.«411072_j44074954392146_3_alg».proof.Proof.Gen.Kernel.Launch
import proofs.«411072_j44074954392146_3_alg».proof.Proof.Gen.Kernel.Points
import proofs.«411072_j44074954392146_3_alg».proof.Proof.LibNary3
import Idealize.ShloMosaic.Lib.Pipeline.FrameBody
import Idealize.ShloMosaic.Lib.Ring
import Idealize.ShloMosaic.Lib.Tactic

set_option maxRecDepth 16384

noncomputable section

namespace Cert.Kernel.Kit

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## @main up to the region -/

/-- Core `c`'s buffers when the region is entered: the launch contents after the one host operation. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host operation, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operation writes `main_v0` only: an argument array is found as launched. -/
theorem V_of_ne (c : Dev nD) (b : Ref sig .tc) (hb : b ≠ main_v0) : V m c b = m ((c : Thread nD τ).loc b) :=
  StableHlo.after_of_forall_not_mem (b := Proc.devRef .tc b) _ _ (List.forall_iff_forall_mem.mp (by
    simp only [hostOps0, List.Forall, StableHlo.nary_writes, Finset.mem_singleton]
    exact StableHlo.devRef_ne_of_ne hb))

theorem V_main_arg0 (c : Dev nD) : V m c main_arg0 = m ((c : Thread nD τ).loc main_arg0) := V_of_ne m c main_arg0 (by decide)
theorem V_main_arg1 (c : Dev nD) : V m c main_arg1 = m ((c : Thread nD τ).loc main_arg1) := V_of_ne m c main_arg1 (by decide)
theorem V_main_arg2 (c : Dev nD) : V m c main_arg2 = m ((c : Thread nD τ).loc main_arg2) := V_of_ne m c main_arg2 (by decide)
theorem V_main_arg3 (c : Dev nD) : V m c main_arg3 = m ((c : Thread nD τ).loc main_arg3) := V_of_ne m c main_arg3 (by decide)

/-- The fused weight array as the region finds it: the three weight arrays concatenated along axis 1. -/
theorem V_main_v0 (c : Dev nD) :
    (V m c main_v0 : Vec F S1024x192 .f32)
      = concatenate S1024x192 1 [⟨S1024x64, m ((c : Thread nD τ).loc main_arg1)⟩, ⟨S1024x64, m ((c : Thread nD τ).loc main_arg2)⟩, ⟨S1024x64, m ((c : Thread nD τ).loc main_arg3)⟩]
          Facts₀.concatenates_S1024x64_S1024x64_S1024x64_S1024x192_d1 := by
  show StableHlo.after hostOps0 (fun b => m (c, b)) (Proc.devRef .tc main_v0) = _
  simp only [hostOps0, StableHlo.after_cons, StableHlo.after_nil]
  rw [StableHlo.nary3_result]
  rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the pipeline library's post, read at the
    argument arrays — the staged input by the library's reading of an input window's array, the arrays no window stages
    by the post's second clause —, is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

end Cert.Kernel.Kit

end
-- ==== Proof.RunK.lean ====
/-
  The kernel body of `Kernel` run once, at symbolic operands: from the two input windows' staging buffers held at
  their contents, the output window's staging buffer and the three projection scratch buffers held at anything, the body
  runs to its return, handing back the inputs as they were, the scratch buffers at something, and the output's buffer
  with a list of stored pieces written into it. The list — four row tiles of the output block, each a pure term of the
  two input blocks — is the witness the run finds.
-/
import proofs.«411072_j44074954392146_3_alg».proof.Proof.Gen.Kernel.Skeleton
import proofs.«411072_j44074954392146_3_alg».proof.Proof.KitK

set_option maxRecDepth 16384

noncomputable section

namespace Cert.Kernel.Kit

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output window's staging buffer (last first), with the body's triple. -/
noncomputable def kernelRun (c : Dev nD) (i : grid0.Coords) (arg1 : Memref sig .tc .vmem S1x2048x1024 .f32) (harg1 : arg1.IsWhole) (arg2 : Memref sig .tc .vmem S1024x192 .f32) (harg2 : arg2.IsWhole) (arg3 : Memref sig .tc .vmem S1x2048x64 .f32) (harg3 : arg3.IsWhole) (arg4 : Memref sig .tc .vmem S2048x64 .bf16) (harg4 : arg4.IsWhole) (arg5 : Memref sig .tc .vmem S2048x64 .bf16) (harg5 : arg5.IsWhole) (arg6 : Memref sig .tc .vmem S2048x64 .bf16) (harg6 : arg6.IsWhole)
    (x0 : Vec F S1x2048x1024 .f32) (x1 : Vec F S1024x192 .f32) :
    { L2 : List (View.Piece (Elt F) S1x2048x64 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ g, arg4.view.loc (c : Thread nD τ) ↦[arg4.view.set]{fullShare} g)
                ∗ (∃ g, arg5.view.loc (c : Thread nD τ) ↦[arg5.view.set]{fullShare} g)
                ∗ (∃ g, arg6.view.loc (c : Thread nD τ) ↦[arg6.view.set]{fullShare} g)) -∗ K ⟨⟩))
          ⊢ wp frame (wpE (defs₀ (F := F)) Variants.none c none) E (cc0_kernel i arg1 harg1 arg2 harg2 arg3 harg3 arg4 harg4 arg5 harg5 arg6 harg6) K } := by
  refine ⟨?_, fun E K => ?run⟩
  case run =>
    simp only [cc0_kernel_eq_skeleton]; unfold cc0_kernel_skel
    unfold owns
    iintro ⟨⟨%f0, %hf0, H0⟩, ⟨%f1, %hf1, H1⟩, ⟨%d2, %f2, -, H2⟩, ⟨%ds0, %fs0, -, HS0⟩, ⟨%ds1, %fs1, -, HS1⟩, ⟨%ds2, %fs2, -, HS2⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    isplitl [HS0]
    · iexists _; iexact HS0
    isplitl [HS1]
    · iexists _; iexact HS1
    iexists _; iexact HS2

end Cert.Kernel.Kit

end
-- ==== Proof.BodyK.lean ====
/-
  The pipeline's proof data for `Kernel`, the body obligation at every grid point, the frame run and the frame:
  after the body at point `t` each input window's staging buffer holds its block, and the output window's holds the
  pieces the body's run stored, read back — a function of the two input blocks at `t` alone, since the three scratch
  arrays are rewritten at every point before they are read; between points the scratch arrays hold anything.
-/
import proofs.«411072_j44074954392146_3_alg».proof.Proof.RunK

set_option maxRecDepth 16384

noncomputable section

namespace Cert.Kernel.Kit

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of the output window, through which its contents are stated. -/
abbrev VO2 : View sig .tc .vmem S1x2048x64 .f32 := (Memref.whole cc0_stg2_0 : Memref sig .tc .vmem S1x2048x64 .f32).view
/-- Each window's current staging memref at point `t`, as the pipeline passes it, and its wholeness. -/
abbrev ms0 (t : Fin cfg0.N) : Memref sig .tc .vmem S1x2048x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x192 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x2048x64 .f32 := win0_2.stage (cfg0.slots t 2)
abbrev hs2 (t : Fin cfg0.N) : (ms2 t).IsWhole := hstage0_2 ((cfg0.slots t 2).cast nbuf0_2)
/-- The three scratch arrays, whole scoped buffers. -/
abbrev sc0 : Memref sig .tc .vmem S2048x64 .bf16 := Memref.whole cc0_scratch0
abbrev sc1 : Memref sig .tc .vmem S2048x64 .bf16 := Memref.whole cc0_scratch1
abbrev sc2 : Memref sig .tc .vmem S2048x64 .bf16 := Memref.whole cc0_scratch2

/-- The region's invariant with the scratch arrays as memrefs owned at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

/-- The run's pieces tile the output block (four row tiles of 512), so they cover it. -/
theorem cover2 (c : Dev nD) (i : grid0.Coords) (arg1 : Memref sig .tc .vmem S1x2048x1024 .f32) (harg1 : arg1.IsWhole) (arg2 : Memref sig .tc .vmem S1024x192 .f32) (harg2 : arg2.IsWhole) (arg3 : Memref sig .tc .vmem S1x2048x64 .f32) (harg3 : arg3.IsWhole) (arg4 : Memref sig .tc .vmem S2048x64 .bf16) (harg4 : arg4.IsWhole) (arg5 : Memref sig .tc .vmem S2048x64 .bf16) (harg5 : arg5.IsWhole) (arg6 : Memref sig .tc .vmem S2048x64 .bf16) (harg6 : arg6.IsWhole)
    (x0 : Vec F S1x2048x1024 .f32) (x1 : Vec F S1024x192 .f32) (y : S1x2048x64.Idx) :
    ∃ pc ∈ (kernelRun c i arg1 harg1 arg2 harg2 arg3 harg3 arg4 harg4 arg5 harg5 arg6 harg6 x0 x1).1, y ∈ pc.1.set :=
  View.cover_of_tiledL (kernelRun c i arg1 harg1 arg2 harg2 arg3 harg3 arg4 harg4 arg5 harg5 arg6 harg6 x0 x1).1 S1x512x64.size (by sl_kernel_rfl) y

/-- What the body leaves in the output window's staging buffer: its pieces read back over junk. -/
def out2 (c : Dev nD) (i : grid0.Coords) (arg1 : Memref sig .tc .vmem S1x2048x1024 .f32) (harg1 : arg1.IsWhole) (arg2 : Memref sig .tc .vmem S1024x192 .f32) (harg2 : arg2.IsWhole) (arg3 : Memref sig .tc .vmem S1x2048x64 .f32) (harg3 : arg3.IsWhole) (arg4 : Memref sig .tc .vmem S2048x64 .bf16) (harg4 : arg4.IsWhole) (arg5 : Memref sig .tc .vmem S2048x64 .bf16) (harg5 : arg5.IsWhole) (arg6 : Memref sig .tc .vmem S2048x64 .bf16) (harg6 : arg6.IsWhole)
    (x0 : Vec F S1x2048x1024 .f32) (x1 : Vec F S1024x192 .f32) : Vec F S1x2048x64 .f32 :=
  VO2.read (Elt F) (VO2.writes (Elt F) VO2.junk (kernelRun c i arg1 harg1 arg2 harg2 arg3 harg3 arg4 harg4 arg5 harg5 arg6 harg6 x0 x1).1)

/-! ## The pipeline's proof data -/

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out2 c (grid0.coords t) (ms0 t) (hs0 t) (ms1 t) (hs1 t) (ms2 t) (hs2 t) sc0 (Memref.isWhole_whole _) sc1 (Memref.isWhole_whole _) sc2 (Memref.isWhole_whole _) (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = out2 c (grid0.coords t) (ms0 t) (hs0 t) (ms1 t) (hs1 t) (ms2 t) (hs2 t) sc0 (Memref.isWhole_whole _) sc1 (Memref.isWhole_whole _) sc2 (Memref.isWhole_whole _) (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t))

set_option maxHeartbeats 4000000 in
/-- The body at any point: the inputs' memrefs hold their blocks, the invariant yields the scratch arrays at anything and
    takes them back at anything, so the run applies; the output's buffer ends with the run's pieces written, which cover it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, show (dats m 0 c).Φ t.castSucc = Pipeline.ΦA spec0 c from rfl, PhiA_eq]
  unfold out2
  iintro ⟨⟨⟨HS0, HS1, HS2⟩, Hg⟩, Ho, ⟨%d0, H0⟩, ⟨%d1, H1⟩, ⟨%d2, H2⟩⟩
  iapply ((kernelRun c (grid0.coords t) _ _ _ _ _ _ _ _ _ _ _ _ (iblk m c 0 t) (iblk m c 1 t)).2 Set.univ _)
  isplitl [H0]; · iexact H0
  isplitl [H1]; · iexact H1
  isplitl [H2]; · iexists _; iexact H2
  isplitl [HS0]; · iexact HS0
  isplitl [HS1]; · iexact HS1
  isplitl [HS2]; · iexact HS2
  iintro ⟨H0, H1, ⟨%e2, H2⟩, ⟨%g0, HS0⟩, ⟨%g1, HS1⟩, ⟨%g2, HS2⟩⟩
  isplitl [HS0 HS1 HS2 Hg]
  · isplitl [HS0 HS1 HS2]
    · isplitl [HS0]
      · iexists (sc0.view.read (Elt F) g0); unfold owns; iexists g0; isplitr; · ipureintro; rfl
        iexact HS0
      isplitl [HS1]
      · iexists (sc1.view.read (Elt F) g1); unfold owns; iexists g1; isplitr; · ipureintro; rfl
        iexact HS1
      iexists (sc2.view.read (Elt F) g2); unfold owns; iexists g2; isplitr; · ipureintro; rfl
      iexact HS2
    iexact Hg
  isplitl [Ho]; · iexact Ho
  isplitl [H0]; · iexact H0
  isplitl [H1]; · iexact H1
  unfold owns; iexists _; isplitr
  swap; · iexact H2
  ipureintro; exact View.read_writes_of_cover _ _ _ _ _ (cover2 c _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, every array of the pipeline at what the library computes from the
    proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Kit

end
-- ==== Proof.KitI.lean ====
/-
  The launch side of `KernelIdeal`, up to its one region: what the region finds in each array — the three weight
  arrays and the input as launched, and the fused weight array `main_v0` the one host operation before the region
  leaves there, the three weight arrays side by side along their second axis —, each window's block at a grid point
  read off those contents, and the frame claim's post read off a run to the pipeline library's post.
-/
import proofs.«411072_j44074954392146_3_alg».proof.Proof.Gen.KernelIdeal.Launch
import proofs.«411072_j44074954392146_3_alg».proof.Proof.Gen.KernelIdeal.Points
import proofs.«411072_j44074954392146_3_alg».proof.Proof.LibNary3
import Idealize.ShloMosaic.Lib.Pipeline.FrameBody
import Idealize.ShloMosaic.Lib.Ring
import Idealize.ShloMosaic.Lib.Tactic

set_option maxRecDepth 16384

noncomputable section

namespace Cert.KernelIdeal.Kit

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

/-! ## @main up to the region -/

/-- Core `c`'s buffers when the region is entered: the launch contents after the one host operation. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host operation, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operation writes `main_v0` only: an argument array is found as launched. -/
theorem V_of_ne (c : Dev nD) (b : Ref sig .tc) (hb : b ≠ main_v0) : V m c b = m ((c : Thread nD τ).loc b) :=
  StableHlo.after_of_forall_not_mem (b := Proc.devRef .tc b) _ _ (List.forall_iff_forall_mem.mp (by
    simp only [hostOps0, List.Forall, StableHlo.nary_writes, Finset.mem_singleton]
    exact StableHlo.devRef_ne_of_ne hb))

theorem V_main_arg0 (c : Dev nD) : V m c main_arg0 = m ((c : Thread nD τ).loc main_arg0) := V_of_ne m c main_arg0 (by decide)
theorem V_main_arg1 (c : Dev nD) : V m c main_arg1 = m ((c : Thread nD τ).loc main_arg1) := V_of_ne m c main_arg1 (by decide)
theorem V_main_arg2 (c : Dev nD) : V m c main_arg2 = m ((c : Thread nD τ).loc main_arg2) := V_of_ne m c main_arg2 (by decide)
theorem V_main_arg3 (c : Dev nD) : V m c main_arg3 = m ((c : Thread nD τ).loc main_arg3) := V_of_ne m c main_arg3 (by decide)

/-- The fused weight array as the region finds it: the three weight arrays concatenated along axis 1. -/
theorem V_main_v0 (c : Dev nD) :
    (V m c main_v0 : Vec F S1024x192 .f32)
      = concatenate S1024x192 1 [⟨S1024x64, m ((c : Thread nD τ).loc main_arg1)⟩, ⟨S1024x64, m ((c : Thread nD τ).loc main_arg2)⟩, ⟨S1024x64, m ((c : Thread nD τ).loc main_arg3)⟩]
          Facts₀.concatenates_S1024x64_S1024x64_S1024x64_S1024x192_d1 := by
  show StableHlo.after hostOps0 (fun b => m (c, b)) (Proc.devRef .tc main_v0) = _
  simp only [hostOps0, StableHlo.after_cons, StableHlo.after_nil]
  rw [StableHlo.nary3_result]
  rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the pipeline library's post, read at the
    argument arrays — the staged input by the library's reading of an input window's array, the arrays no window stages
    by the post's second clause —, is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

end Cert.KernelIdeal.Kit

end
-- ==== Proof.RunI.lean ====
/-
  The kernel body of `KernelIdeal` run once, at symbolic operands: from the two input windows' staging buffers held at
  their contents, the output window's staging buffer and the three projection scratch buffers held at anything, the body
  runs to its return, handing back the inputs as they were, the scratch buffers at something, and the output's buffer
  with a list of stored pieces written into it. The list — four row tiles of the output block, each a pure term of the
  two input blocks — is the witness the run finds.
-/
import proofs.«411072_j44074954392146_3_alg».proof.Proof.Gen.KernelIdeal.Skeleton
import proofs.«411072_j44074954392146_3_alg».proof.Proof.KitI

set_option maxRecDepth 16384

noncomputable section

namespace Cert.KernelIdeal.Kit

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The pieces the body's stores leave in the output window's staging buffer (last first), with the body's triple. -/
noncomputable def kernelRun (c : Dev nD) (i : grid0.Coords) (arg1 : Memref sig .tc .vmem S1x2048x1024 .f32) (harg1 : arg1.IsWhole) (arg2 : Memref sig .tc .vmem S1024x192 .f32) (harg2 : arg2.IsWhole) (arg3 : Memref sig .tc .vmem S1x2048x64 .f32) (harg3 : arg3.IsWhole) (arg4 : Memref sig .tc .vmem S2048x64 .bf16) (harg4 : arg4.IsWhole) (arg5 : Memref sig .tc .vmem S2048x64 .bf16) (harg5 : arg5.IsWhole) (arg6 : Memref sig .tc .vmem S2048x64 .bf16) (harg6 : arg6.IsWhole)
    (x0 : Vec F S1x2048x1024 .f32) (x1 : Vec F S1024x192 .f32) :
    { L2 : List (View.Piece (Elt F) S1x2048x64 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ g, arg4.view.loc (c : Thread nD τ) ↦[arg4.view.set]{fullShare} g)
                ∗ (∃ g, arg5.view.loc (c : Thread nD τ) ↦[arg5.view.set]{fullShare} g)
                ∗ (∃ g, arg6.view.loc (c : Thread nD τ) ↦[arg6.view.set]{fullShare} g)) -∗ K ⟨⟩))
          ⊢ wp frame (wpE (defs₀ (F := F)) Variants.none c none) E (cc0_kernel i arg1 harg1 arg2 harg2 arg3 harg3 arg4 harg4 arg5 harg5 arg6 harg6) K } := by
  refine ⟨?_, fun E K => ?run⟩
  case run =>
    simp only [cc0_kernel_eq_skeleton]; unfold cc0_kernel_skel
    unfold owns
    iintro ⟨⟨%f0, %hf0, H0⟩, ⟨%f1, %hf1, H1⟩, ⟨%d2, %f2, -, H2⟩, ⟨%ds0, %fs0, -, HS0⟩, ⟨%ds1, %fs1, -, HS1⟩, ⟨%ds2, %fs2, -, HS2⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    isplitl [HS0]
    · iexists _; iexact HS0
    isplitl [HS1]
    · iexists _; iexact HS1
    iexists _; iexact HS2

end Cert.KernelIdeal.Kit

end
-- ==== Proof.BodyI.lean ====
/-
  The pipeline's proof data for `KernelIdeal`, the body obligation at every grid point, the frame run and the frame:
  after the body at point `t` each input window's staging buffer holds its block, and the output window's holds the
  pieces the body's run stored, read back — a function of the two input blocks at `t` alone, since the three scratch
  arrays are rewritten at every point before they are read; between points the scratch arrays hold anything.
-/
import proofs.«411072_j44074954392146_3_alg».proof.Proof.RunI

set_option maxRecDepth 16384

noncomputable section

namespace Cert.KernelIdeal.Kit

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- One staging buffer of the output window, through which its contents are stated. -/
abbrev VO2 : View sig .tc .vmem S1x2048x64 .f32 := (Memref.whole cc0_stg2_0 : Memref sig .tc .vmem S1x2048x64 .f32).view
/-- Each window's current staging memref at point `t`, as the pipeline passes it, and its wholeness. -/
abbrev ms0 (t : Fin cfg0.N) : Memref sig .tc .vmem S1x2048x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x192 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x2048x64 .f32 := win0_2.stage (cfg0.slots t 2)
abbrev hs2 (t : Fin cfg0.N) : (ms2 t).IsWhole := hstage0_2 ((cfg0.slots t 2).cast nbuf0_2)
/-- The three scratch arrays, whole scoped buffers. -/
abbrev sc0 : Memref sig .tc .vmem S2048x64 .bf16 := Memref.whole cc0_scratch0
abbrev sc1 : Memref sig .tc .vmem S2048x64 .bf16 := Memref.whole cc0_scratch1
abbrev sc2 : Memref sig .tc .vmem S2048x64 .bf16 := Memref.whole cc0_scratch2

/-- The region's invariant with the scratch arrays as memrefs owned at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

/-- The run's pieces tile the output block (four row tiles of 512), so they cover it. -/
theorem cover2 (c : Dev nD) (i : grid0.Coords) (arg1 : Memref sig .tc .vmem S1x2048x1024 .f32) (harg1 : arg1.IsWhole) (arg2 : Memref sig .tc .vmem S1024x192 .f32) (harg2 : arg2.IsWhole) (arg3 : Memref sig .tc .vmem S1x2048x64 .f32) (harg3 : arg3.IsWhole) (arg4 : Memref sig .tc .vmem S2048x64 .bf16) (harg4 : arg4.IsWhole) (arg5 : Memref sig .tc .vmem S2048x64 .bf16) (harg5 : arg5.IsWhole) (arg6 : Memref sig .tc .vmem S2048x64 .bf16) (harg6 : arg6.IsWhole)
    (x0 : Vec F S1x2048x1024 .f32) (x1 : Vec F S1024x192 .f32) (y : S1x2048x64.Idx) :
    ∃ pc ∈ (kernelRun c i arg1 harg1 arg2 harg2 arg3 harg3 arg4 harg4 arg5 harg5 arg6 harg6 x0 x1).1, y ∈ pc.1.set :=
  View.cover_of_tiledL (kernelRun c i arg1 harg1 arg2 harg2 arg3 harg3 arg4 harg4 arg5 harg5 arg6 harg6 x0 x1).1 S1x512x64.size (by sl_kernel_rfl) y

/-- What the body leaves in the output window's staging buffer: its pieces read back over junk. -/
def out2 (c : Dev nD) (i : grid0.Coords) (arg1 : Memref sig .tc .vmem S1x2048x1024 .f32) (harg1 : arg1.IsWhole) (arg2 : Memref sig .tc .vmem S1024x192 .f32) (harg2 : arg2.IsWhole) (arg3 : Memref sig .tc .vmem S1x2048x64 .f32) (harg3 : arg3.IsWhole) (arg4 : Memref sig .tc .vmem S2048x64 .bf16) (harg4 : arg4.IsWhole) (arg5 : Memref sig .tc .vmem S2048x64 .bf16) (harg5 : arg5.IsWhole) (arg6 : Memref sig .tc .vmem S2048x64 .bf16) (harg6 : arg6.IsWhole)
    (x0 : Vec F S1x2048x1024 .f32) (x1 : Vec F S1024x192 .f32) : Vec F S1x2048x64 .f32 :=
  VO2.read (Elt F) (VO2.writes (Elt F) VO2.junk (kernelRun c i arg1 harg1 arg2 harg2 arg3 harg3 arg4 harg4 arg5 harg5 arg6 harg6 x0 x1).1)

/-! ## The pipeline's proof data -/

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out2 c (grid0.coords t) (ms0 t) (hs0 t) (ms1 t) (hs1 t) (ms2 t) (hs2 t) sc0 (Memref.isWhole_whole _) sc1 (Memref.isWhole_whole _) sc2 (Memref.isWhole_whole _) (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = out2 c (grid0.coords t) (ms0 t) (hs0 t) (ms1 t) (hs1 t) (ms2 t) (hs2 t) sc0 (Memref.isWhole_whole _) sc1 (Memref.isWhole_whole _) sc2 (Memref.isWhole_whole _) (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t))

set_option maxHeartbeats 4000000 in
/-- The body at any point: the inputs' memrefs hold their blocks, the invariant yields the scratch arrays at anything and
    takes them back at anything, so the run applies; the output's buffer ends with the run's pieces written, which cover it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, show (dats m 0 c).Φ t.castSucc = Pipeline.ΦA spec0 c from rfl, PhiA_eq]
  unfold out2
  iintro ⟨⟨⟨HS0, HS1, HS2⟩, Hg⟩, Ho, ⟨%d0, H0⟩, ⟨%d1, H1⟩, ⟨%d2, H2⟩⟩
  iapply ((kernelRun c (grid0.coords t) _ _ _ _ _ _ _ _ _ _ _ _ (iblk m c 0 t) (iblk m c 1 t)).2 Set.univ _)
  isplitl [H0]; · iexact H0
  isplitl [H1]; · iexact H1
  isplitl [H2]; · iexists _; iexact H2
  isplitl [HS0]; · iexact HS0
  isplitl [HS1]; · iexact HS1
  isplitl [HS2]; · iexact HS2
  iintro ⟨H0, H1, ⟨%e2, H2⟩, ⟨%g0, HS0⟩, ⟨%g1, HS1⟩, ⟨%g2, HS2⟩⟩
  isplitl [HS0 HS1 HS2 Hg]
  · isplitl [HS0 HS1 HS2]
    · isplitl [HS0]
      · iexists (sc0.view.read (Elt F) g0); unfold owns; iexists g0; isplitr; · ipureintro; rfl
        iexact HS0
      isplitl [HS1]
      · iexists (sc1.view.read (Elt F) g1); unfold owns; iexists g1; isplitr; · ipureintro; rfl
        iexact HS1
      iexists (sc2.view.read (Elt F) g2); unfold owns; iexists g2; isplitr; · ipureintro; rfl
      iexact HS2
    iexact Hg
  isplitl [Ho]; · iexact Ho
  isplitl [H0]; · iexact H0
  isplitl [H1]; · iexact H1
  unfold owns; iexists _; isplitr
  swap; · iexact H2
  ipureintro; exact View.read_writes_of_cover _ _ _ _ _ (cover2 c _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, every array of the pipeline at what the library computes from the
    proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Kit

end
-- ==== Proof.Tile.lean ====
/-
  The kernel body's arithmetic as functions of the three projection scratch arrays, for every float family: a row
  tile's scores against a column tile (`scoreT`: the row operand scaled by 1/8, times the column operand transposed),
  the causal mask on a diagonal tile (`maskT`), one step of the tile-by-tile softmax recurrence on 512 rows at once
  (`St.step`: running row maximum, rescaled sum of weights, rescaled weighted sum of value rows) and the final
  quotient (`St.out`); the four output row tiles are the recurrence run over the column tiles up to the diagonal.
-/
import proofs.«411072_j44074954392146_3_alg».proof.KernelIdeal
import Idealize.ShloMosaic.Lib.Pipeline.FrameBody

noncomputable section

namespace Cert.KernelIdeal.Tile

open Cert.KernelIdeal Idealize.ShloMosaic Idealize.SL.Sem
open Facts₀ Facts

variable {F : FTy → Type} [FloatOps F] [Named F] [Facts]

/-- The three projections of the input block by the fused weight block: columns 0–63, 64–127, 128–191 of their product. -/
def projAll (x0 : Vec F S1x2048x1024 .f32) (x1 : Vec F S1024x192 .f32) : FVec F S2048x192 .f32 :=
  matmul dot_S2048x1024_S1024x192_S2048x192_1_0_0_1_n_n none
    (truncf .bf16 (shapeCast S2048x1024 x0 shapeCasts_S1x2048x1024_S2048x1024) bitsLt_bf16_f32)
    (truncf .bf16 (shapeCast S1024x192 x1 shapeCasts_S1024x192_S1024x192) bitsLt_bf16_f32)
    (constant S2048x192 .f32 0x00000000#32)

def projQ (x0 : Vec F S1x2048x1024 .f32) (x1 : Vec F S1024x192 .f32) : FVec F S2048x64 .bf16 :=
  shapeCast S2048x64 (truncf .bf16 (extractStridedSlice S2048x64 ![0, 0] (projAll x0 x1) slices_S2048x192_o0_0_S2048x64) bitsLt_bf16_f32) shapeCasts_S2048x64_S2048x64
def projK (x0 : Vec F S1x2048x1024 .f32) (x1 : Vec F S1024x192 .f32) : FVec F S2048x64 .bf16 :=
  shapeCast S2048x64 (truncf .bf16 (extractStridedSlice S2048x64 ![0, 64] (projAll x0 x1) slices_S2048x192_o0_64_S2048x64) bitsLt_bf16_f32) shapeCasts_S2048x64_S2048x64
def projV (x0 : Vec F S1x2048x1024 .f32) (x1 : Vec F S1024x192 .f32) : FVec F S2048x64 .bf16 :=
  shapeCast S2048x64 (truncf .bf16 (extractStridedSlice S2048x64 ![0, 128] (projAll x0 x1) slices_S2048x192_o0_128_S2048x64) bitsLt_bf16_f32) shapeCasts_S2048x64_S2048x64

/-- The masked-position filler: the named constant that stands for `-∞`. -/
def negBig : F .f32 := Named.named κ "neg_big" 0xFF333332#32

/-- A row tile's scores against a column tile: `(kt · 1/8) · qtᵀ`. -/
def scoreT (kt qt : Vec F S512x64 .bf16) : FVec F S512x512 .f32 :=
  matmul dot_S512x64_S64x512_S512x512_1_0_0_1_n_n none
    (mulf kt (broadcast S512x64 (Scalar.ofBits .bf16 0x3E00#16)))
    (transpose S64x512 [1, 0] qt transposes_S512x64_p1_0_S64x512)
    (constant S512x512 .f32 0x00000000#32)

/-- The causal mask on a diagonal tile whose rows and columns both start at `off`: entry (r, c) kept for `c ≤ r`. -/
def maskT (off : BitVec 32) (s : FVec F S512x512 .f32) : FVec F S512x512 .f32 :=
  select (cmpi .sge (addi (broadcast S512x512 off) (iota .tc S512x512 32 [0] iota_S512x512_d0_w32))
      (addi (broadcast S512x512 off) (iota .tc S512x512 32 [1] iota_S512x512_d1_w32)))
    s (broadcast S512x512 (negBig (F := F)))

/-- The recurrence's state on 512 rows: running maximum, sum of weights, weighted sum of value rows. -/
structure St (F : FTy → Type) where
  m : FVec F S512x1 .f32
  l : FVec F S512x1 .f32
  acc : FVec F S512x64 .f32

def St.init : St F :=
  ⟨broadcast S512x1 (negBig (F := F)), broadcast S512x1 (Scalar.ofBits .f32 0x00000000#32), broadcast S512x64 (Scalar.ofBits .f32 0x00000000#32)⟩

/-- The new running maximum after a tile of scores `s`. -/
def St.mnew (st : St F) (s : FVec F S512x512 .f32) : FVec F S512x1 .f32 :=
  maximumf st.m (shapeCast S512x1 (multiReduction .maximumf [1] S512 s 0xFF800000#32 reduces_S512x512_S512 (.inl rfl) rfl) shapeCasts_S512_S512x1)
/-- The rescaling factor `exp (m - m')`. -/
def St.alpha (st : St F) (s : FVec F S512x512 .f32) : FVec F S512x1 .f32 := exp (subf st.m (st.mnew s))
/-- The tile's weights `exp (s - m')`. -/
def St.pw (st : St F) (s : FVec F S512x512 .f32) : FVec F S512x512 .f32 :=
  exp (subf s (broadcastTo S512x512 (st.mnew s) broadcasts_S512x1_S512x512))

/-- One column tile: scores `s`, value rows `val`. -/
def St.step (st : St F) (s : FVec F S512x512 .f32) (val : Vec F S512x64 .bf16) : St F :=
  ⟨st.mnew s,
   addf (mulf (st.alpha s) st.l) (shapeCast S512x1 (multiReduction .add [1] S512 (st.pw s) 0x00000000#32 reduces_S512x512_S512 (.inl rfl) rfl) shapeCasts_S512_S512x1),
   addf (mulf (broadcastTo S512x64 (st.alpha s) broadcasts_S512x1_S512x64) st.acc)
     (matmul dot_S512x512_S512x64_S512x64_1_0_0_1_n_n none (truncf .bf16 (st.pw s) bitsLt_bf16_f32) val (constant S512x64 .f32 0x00000000#32))⟩

/-- The output row tile: the weighted sum over the sum of weights, as a [1, 512, 64] block. -/
def St.out (st : St F) : FVec F S1x512x64 .f32 :=
  shapeCast S1x512x64 (divf st.acc (broadcastTo S512x64 st.l broadcasts_S512x1_S512x64)) shapeCasts_S512x64_S1x512x64

/-- The four output row tiles from the scratch arrays' 512-row tiles (`kⱼ`, `qⱼ`, `vⱼ`: rows 512 j … 512 j + 511). -/
def tile0 (k0 q0 v0 : Vec F S512x64 .bf16) : FVec F S1x512x64 .f32 :=
  ((St.init (F := F)).step (maskT 0#32 (scoreT k0 q0)) v0).out
def tile1 (k1 q0 v0 q1 v1 : Vec F S512x64 .bf16) : FVec F S1x512x64 .f32 :=
  (((St.init (F := F)).step (scoreT k1 q0) v0).step (maskT 512#32 (scoreT k1 q1)) v1).out
def tile2 (k2 q0 v0 q1 v1 q2 v2 : Vec F S512x64 .bf16) : FVec F S1x512x64 .f32 :=
  ((((St.init (F := F)).step (scoreT k2 q0) v0).step (scoreT k2 q1) v1).step (maskT 1024#32 (scoreT k2 q2)) v2).out
def tile3 (k3 q0 v0 q1 v1 q2 v2 q3 v3 : Vec F S512x64 .bf16) : FVec F S1x512x64 .f32 :=
  (((((St.init (F := F)).step (scoreT k3 q0) v0).step (scoreT k3 q1) v1).step (scoreT k3 q2) v2).step (maskT 1536#32 (scoreT k3 q3)) v3).out

/-- Rows 512 j … 512 j + 511 of a scratch array. -/
abbrev sub0 (A : Vec F S2048x64 .bf16) : Vec F S512x64 .bf16 := View.ld A (Rect.unit (s := S2048x64) ![0, 0] S512x64.size inb_S2048x64_S512x64_0_0)
abbrev sub1 (A : Vec F S2048x64 .bf16) : Vec F S512x64 .bf16 := View.ld A (Rect.unit (s := S2048x64) ![512, 0] S512x64.size inb_S2048x64_S512x64_512_0)
abbrev sub2 (A : Vec F S2048x64 .bf16) : Vec F S512x64 .bf16 := View.ld A (Rect.unit (s := S2048x64) ![1024, 0] S512x64.size inb_S2048x64_S512x64_1024_0)
abbrev sub3 (A : Vec F S2048x64 .bf16) : Vec F S512x64 .bf16 := View.ld A (Rect.unit (s := S2048x64) ![1536, 0] S512x64.size inb_S2048x64_S512x64_1536_0)

/-- The four stored pieces of the output block (last first), from the three scratch arrays. -/
def piecesQKV (Q K V : Vec F S2048x64 .bf16) : List (View.Piece (Elt F) S1x2048x64 .f32) :=
  [⟨Rect.unit (s := S1x2048x64) ![0, 1536, 0] S1x512x64.size inb_S1x2048x64_S1x512x64_0_1536_0,
      tile3 (sub3 K) (sub0 Q) (sub0 V) (sub1 Q) (sub1 V) (sub2 Q) (sub2 V) (sub3 Q) (sub3 V)⟩,
   ⟨Rect.unit (s := S1x2048x64) ![0, 1024, 0] S1x512x64.size inb_S1x2048x64_S1x512x64_0_1024_0,
      tile2 (sub2 K) (sub0 Q) (sub0 V) (sub1 Q) (sub1 V) (sub2 Q) (sub2 V)⟩,
   ⟨Rect.unit (s := S1x2048x64) ![0, 512, 0] S1x512x64.size inb_S1x2048x64_S1x512x64_0_512_0,
      tile1 (sub1 K) (sub0 Q) (sub0 V) (sub1 Q) (sub1 V)⟩,
   ⟨Rect.unit (s := S1x2048x64) ![0, 0, 0] S1x512x64.size inb_S1x2048x64_S1x512x64_0_0_0,
      tile0 (sub0 K) (sub0 Q) (sub0 V)⟩]

/-- The output block the body leaves, from the two input blocks. -/
def outF (x0 : Vec F S1x2048x1024 .f32) (x1 : Vec F S1024x192 .f32) : Vec F S1x2048x64 .f32 :=
  View.canon (piecesQKV (projQ x0 x1) (projK x0 x1) (projV x0 x1))

end Cert.KernelIdeal.Tile

end
-- ==== Proof.ValueI.lean ====
/-
  What the body of `KernelIdeal` leaves in the output window's staging buffer, in closed form: the pieces its run stored
  are the four row tiles of the tile-by-tile softmax recurrence over the three projections of the two input blocks — the
  loads of the scratch arrays read back the projections just stored there, the loads of the input windows read the blocks.
-/
import proofs.«411072_j44074954392146_3_alg».proof.Proof.BodyI
import proofs.«411072_j44074954392146_3_alg».proof.Proof.Tile
import Idealize.ShloMosaic.Lib.Pipeline.Value

set_option maxRecDepth 65536

noncomputable section

namespace Cert.KernelIdeal.Kit

open Cert.KernelIdeal Cert.KernelIdeal.Gen Cert.KernelIdeal.Tile
open Idealize.ShloMosaic Idealize.ShloMosaic.TcCoe Idealize.ShloMosaic.Tactic
open Idealize.SL Idealize.SL.Sem

variable {F : FTy → Type} [FloatOps F] [Named F]

theorem off2 : (![0, 0] : Fin 2 → ℕ) = fun _ => 0 := funext fun a => by fin_cases a <;> rfl
theorem off3 : (![0, 0, 0] : Fin 3 → ℕ) = fun _ => 0 := funext fun a => by fin_cases a <;> rfl

set_option maxHeartbeats 4000000 in
/-- The run's pieces are the four row tiles over the projections: each scratch load reads the one whole-array store
    before it through its rectangle, each input load reads its block. -/
theorem pieces_eq (c : Dev nD) (i : grid0.Coords) (arg1 : Memref sig .tc .vmem S1x2048x1024 .f32) (harg1 : arg1.IsWhole) (arg2 : Memref sig .tc .vmem S1024x192 .f32) (harg2 : arg2.IsWhole) (arg3 : Memref sig .tc .vmem S1x2048x64 .f32) (harg3 : arg3.IsWhole) (arg4 : Memref sig .tc .vmem S2048x64 .bf16) (harg4 : arg4.IsWhole) (arg5 : Memref sig .tc .vmem S2048x64 .bf16) (harg5 : arg5.IsWhole) (arg6 : Memref sig .tc .vmem S2048x64 .bf16) (harg6 : arg6.IsWhole)
    (x0 : Vec F S1x2048x1024 .f32) (x1 : Vec F S1024x192 .f32) :
    (kernelRun c i arg1 harg1 arg2 harg2 arg3 harg3 arg4 harg4 arg5 harg5 arg6 harg6 x0 x1).1
      = piecesQKV (projQ x0 x1) (projK x0 x1) (projV x0 x1) := by
  unfold kernelRun
  dsimp only
  sl_unfold_words
  simp only [View.readCov_eq_canon', View.readAt_eq_ld, harg1.read_unread, harg2.read_unread,
    View.ld_unit_zero (S := S1x2048x1024) off3, View.ld_unit_zero (S := S1024x192) off2, View.canon_unit_zero (S := S2048x64) off2]
  rfl

/-- The output block the body leaves is `outF` of the two input blocks, whatever the memrefs and the point. -/
theorem out2_eq (c : Dev nD) (i : grid0.Coords) (arg1 : Memref sig .tc .vmem S1x2048x1024 .f32) (harg1 : arg1.IsWhole) (arg2 : Memref sig .tc .vmem S1024x192 .f32) (harg2 : arg2.IsWhole) (arg3 : Memref sig .tc .vmem S1x2048x64 .f32) (harg3 : arg3.IsWhole) (arg4 : Memref sig .tc .vmem S2048x64 .bf16) (harg4 : arg4.IsWhole) (arg5 : Memref sig .tc .vmem S2048x64 .bf16) (harg5 : arg5.IsWhole) (arg6 : Memref sig .tc .vmem S2048x64 .bf16) (harg6 : arg6.IsWhole)
    (x0 : Vec F S1x2048x1024 .f32) (x1 : Vec F S1024x192 .f32) :
    out2 c i arg1 harg1 arg2 harg2 arg3 harg3 arg4 harg4 arg5 harg5 arg6 harg6 x0 x1 = outF x0 x1 := by
  unfold out2 outF
  rw [View.read_writes_junk_eq_canon, pieces_eq]

end Cert.KernelIdeal.Kit

end
-- ==== Proof.Online.lean ====
/-
  The online (tile by tile) evaluation of a masked softmax-weighted sum, on the extended reals.

  A row's scores arrive tile by tile; each score is a real number or `⊥` (a masked position). The running state keeps
  the maximum seen so far, the sum of `exp (score - maximum)` and the `exp`-weighted sum of the values, and rescales
  both sums by `exp (old maximum - new maximum)` when the maximum moves. This file states that the quotient of the two
  sums after the visited tiles is the one-pass softmax-weighted sum over all positions, the unvisited ones being masked.
-/
import Idealize.ShloMosaic.PureOps.Ideal
import Mathlib.Algebra.BigOperators.Fin
import Mathlib.Data.EReal.Basic
import Mathlib.Data.EReal.Operations
import Mathlib.Data.EReal.Inv
import Mathlib.Data.Finset.Fold
import Mathlib.Data.Fintype.BigOperators
import Mathlib.Logic.Equiv.Fin.Basic
import Mathlib.Algebra.BigOperators.Ring.Finset
import Mathlib.Algebra.Order.BigOperators.Group.Finset
import Mathlib.Analysis.Complex.Exponential

noncomputable section

namespace Cert.Attn

open Idealize.ShloMosaic

/-- The running state of one row: the maximum so far, the sum of weights, the weighted sum of values. -/
structure Acc where
  m : EReal
  l : EReal
  a : EReal

/-- Before any tile: maximum `⊥`, both sums zero. -/
def Acc.init : Acc := ⟨⊥, 0, 0⟩

/-- One tile of `w` positions with scores `s` and values `v`: the maximum moves to `m'`, the old sums are rescaled by
    `exp (m - m')`, and the tile's weights `exp (s c - m')` are added. -/
def Acc.step {w : ℕ} (st : Acc) (s v : Fin w → EReal) : Acc :=
  ⟨max st.m ((Finset.univ : Finset (Fin w)).fold max ⊥ s),
   Ideal.exp (st.m - max st.m ((Finset.univ : Finset (Fin w)).fold max ⊥ s)) * st.l
     + ∑ c : Fin w, Ideal.exp (s c - max st.m ((Finset.univ : Finset (Fin w)).fold max ⊥ s)),
   Ideal.exp (st.m - max st.m ((Finset.univ : Finset (Fin w)).fold max ⊥ s)) * st.a
     + ∑ c : Fin w, Ideal.exp (s c - max st.m ((Finset.univ : Finset (Fin w)).fold max ⊥ s)) * v c⟩

/-- The weighted sum over the sum of weights. -/
def Acc.out (st : Acc) : EReal := Ideal.div st.a st.l

/-- The state after the first `p` tiles, tile `j` having scores `S j` and values `v j`. -/
def run {w : ℕ} (S v : ℕ → Fin w → EReal) : ℕ → Acc
  | 0 => Acc.init
  | p + 1 => (run S v p).step (S p) (v p)

/-- The one-pass form over `n` positions: the maximum `M` of the scores, the weights `exp (S k - M)`, their sum `Z`,
    and the sum of the normalised weights times the values. -/
def refOut {n : ℕ} (S v : Fin n → EReal) : EReal :=
  ∑ k : Fin n, Ideal.div (Ideal.exp (S k - (Finset.univ : Finset (Fin n)).fold max ⊥ S))
      (∑ k' : Fin n, Ideal.exp (S k' - (Finset.univ : Finset (Fin n)).fold max ⊥ S)) * v k

/-! ### Real weights

Every score is `⊥` or a real number, so against a real maximum `M` each `exp (score - M)` is a real number: `0` for a
masked score and `Real.exp (r - M)` for a real one. -/

/-- The weight of a score `x` against the real maximum `M`, as a real number. -/
def wt (x : EReal) (M : ℝ) : ℝ := if x = ⊥ then 0 else Real.exp (x.toReal - M)

theorem wt_bot (M : ℝ) : wt ⊥ M = 0 := if_pos rfl

theorem wt_coe (r M : ℝ) : wt (r : EReal) M = Real.exp (r - M) := by
  rw [wt, if_neg (EReal.coe_ne_bot r), EReal.toReal_coe]

theorem wt_self (M : ℝ) : wt (M : EReal) M = 1 := by rw [wt_coe, sub_self, Real.exp_zero]

theorem wt_nonneg (x : EReal) (M : ℝ) : 0 ≤ wt x M := by
  unfold wt
  split_ifs
  · exact le_rfl
  · exact (Real.exp_pos _).le

/-- `exp (x - M)` on the extended reals is the real weight. -/
theorem exp_sub_coe {x : EReal} (hx : x = ⊥ ∨ ∃ r : ℝ, x = (r : EReal)) (M : ℝ) :
    Ideal.exp (x - (M : EReal)) = ((wt x M : ℝ) : EReal) := by
  rcases hx with rfl | ⟨r, rfl⟩
  · rw [EReal.bot_sub, Ideal.exp_bot, wt_bot, EReal.coe_zero]
  · rw [← EReal.coe_sub, Ideal.exp_coe, wt_coe]

/-- Moving the maximum from `M` to `M'` rescales every weight by `exp (M - M')`. -/
theorem exp_mul_wt (M M' : ℝ) (x : EReal) : Real.exp (M - M') * wt x M = wt x M' := by
  unfold wt
  split_ifs
  · exact mul_zero _
  · rw [← Real.exp_add]
    congr 1
    ring

theorem ne_top_of {x : EReal} (hx : x = ⊥ ∨ ∃ r : ℝ, x = (r : EReal)) : x ≠ ⊤ := by
  rcases hx with rfl | ⟨r, rfl⟩
  · exact bot_ne_top
  · exact EReal.coe_ne_top r

theorem exists_real {x : EReal} (h1 : x ≠ ⊥) (h2 : x ≠ ⊤) : ∃ r : ℝ, x = (r : EReal) :=
  ⟨x.toReal, (EReal.coe_toReal h2 h1).symm⟩

/-- The embedding of the reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-! ### The running maximum of a finite family -/

theorem le_foldmax {ι : Type*} (s : Finset ι) (f : ι → EReal) {i : ι} (hi : i ∈ s) :
    f i ≤ s.fold max ⊥ f :=
  (Finset.le_fold_max (f i)).2 (Or.inr ⟨i, hi, le_rfl⟩)

/-- A maximum above `⊥` is attained. -/
theorem foldmax_attained {ι : Type*} (s : Finset ι) (f : ι → EReal) (h : s.fold max ⊥ f ≠ ⊥) :
    ∃ i ∈ s, f i = s.fold max ⊥ f := by
  by_contra hex
  have hne : ∀ i ∈ s, f i ≠ s.fold max ⊥ f := fun i hi h => hex ⟨i, hi, h⟩
  have hlt : s.fold max ⊥ f < s.fold max ⊥ f :=
    (Finset.fold_max_lt _).2
      ⟨bot_lt_iff_ne_bot.2 h, fun i hi => lt_of_le_of_ne (le_foldmax s f hi) (hne i hi)⟩
  exact lt_irrefl _ hlt

theorem foldmax_ne_top {ι : Type*} (s : Finset ι) (f : ι → EReal) (h : ∀ i ∈ s, f i ≠ ⊤) :
    s.fold max ⊥ f ≠ ⊤ :=
  ne_of_lt ((Finset.fold_max_lt _).2 ⟨bot_lt_top, fun i hi => lt_top_iff_ne_top.2 (h i hi)⟩)

/-! ### One tile, in real terms -/

/-- One tile from a state whose sums are real and whose maximum is `⊥` or real, the new maximum being the real `M'`:
    the new sums are the old ones times the weight of the old maximum, plus the tile's weights. -/
theorem step_real {w : ℕ} (st : Acc) (s v : Fin w → EReal) (vr : Fin w → ℝ) (L A M' : ℝ)
    (hm : st.m = ⊥ ∨ ∃ r : ℝ, st.m = (r : EReal)) (hl : st.l = (L : EReal)) (ha : st.a = (A : EReal))
    (hs : ∀ c, s c = ⊥ ∨ ∃ r : ℝ, s c = (r : EReal)) (hv : ∀ c, v c = (vr c : EReal))
    (hM' : max st.m ((Finset.univ : Finset (Fin w)).fold max ⊥ s) = (M' : EReal)) :
    st.step s v = ⟨(M' : EReal), ((wt st.m M' * L + ∑ c, wt (s c) M' : ℝ) : EReal),
      ((wt st.m M' * A + ∑ c, wt (s c) M' * vr c : ℝ) : EReal)⟩ := by
  unfold Acc.step
  rw [hM', hl, ha, exp_sub_coe hm]
  simp only [exp_sub_coe (hs _), hv, ← EReal.coe_mul, ← coe_sum, ← EReal.coe_add]

/-- The state after `p` tiles in real terms: the maximum is the real `M`, it bounds the visited scores and is one of
    them, and the two sums are the real sums of the weights against `M`. -/
structure Inv {w : ℕ} (S : ℕ → Fin w → EReal) (vr : ℕ → Fin w → ℝ) (p : ℕ) (st : Acc) (M : ℝ) : Prop where
  m_eq : st.m = (M : EReal)
  l_eq : st.l = ((∑ j ∈ Finset.range p, ∑ c, wt (S j c) M : ℝ) : EReal)
  a_eq : st.a = ((∑ j ∈ Finset.range p, ∑ c, wt (S j c) M * vr j c : ℝ) : EReal)
  le_max : ∀ j, j < p → ∀ c, S j c ≤ (M : EReal)
  attained : ∃ j, j < p ∧ ∃ c, S j c = (M : EReal)

/-- After the first tile. -/
theorem inv_one {w : ℕ} (S v : ℕ → Fin w → EReal) (vr : ℕ → Fin w → ℝ)
    (hS : ∀ j c, S j c = ⊥ ∨ ∃ r : ℝ, S j c = (r : EReal)) (hv : ∀ j c, v j c = (vr j c : EReal))
    (h0 : ∃ c, ∃ r : ℝ, S 0 c = (r : EReal)) :
    ∃ M : ℝ, Inv S vr 1 (run S v 1) M := by
  obtain ⟨c0, r0, hr0⟩ := h0
  have hTtop : (Finset.univ : Finset (Fin w)).fold max ⊥ (S 0) ≠ ⊤ :=
    foldmax_ne_top _ _ fun c _ => ne_top_of (hS 0 c)
  have hTbot : (Finset.univ : Finset (Fin w)).fold max ⊥ (S 0) ≠ ⊥ := by
    intro h
    have hle := le_foldmax Finset.univ (S 0) (Finset.mem_univ c0)
    rw [h, hr0] at hle
    exact EReal.coe_ne_bot r0 (le_bot_iff.1 hle)
  obtain ⟨M, hM⟩ := exists_real hTbot hTtop
  refine ⟨M, ?_⟩
  have hstep := step_real Acc.init (S 0) (v 0) (vr 0) 0 0 M (Or.inl rfl) rfl rfl (hS 0) (hv 0)
    ((max_bot_left _).trans hM)
  show Inv S vr 1 (Acc.init.step (S 0) (v 0)) M
  rw [hstep]
  refine ⟨rfl, congrArg Real.toEReal ?_, congrArg Real.toEReal ?_, ?_, ?_⟩
  · rw [Finset.sum_range_one, mul_zero, zero_add]
  · rw [Finset.sum_range_one, mul_zero, zero_add]
  · intro j hj c
    obtain rfl : j = 0 := Nat.lt_one_iff.1 hj
    rw [← hM]
    exact le_foldmax Finset.univ (S 0) (Finset.mem_univ c)
  · obtain ⟨c, _, hc⟩ := foldmax_attained Finset.univ (S 0) hTbot
    exact ⟨0, Nat.zero_lt_one, c, hc.trans hM⟩

/-- One more tile. -/
theorem inv_succ {w : ℕ} (S v : ℕ → Fin w → EReal) (vr : ℕ → Fin w → ℝ)
    (hS : ∀ j c, S j c = ⊥ ∨ ∃ r : ℝ, S j c = (r : EReal)) (hv : ∀ j c, v j c = (vr j c : EReal))
    (p : ℕ) (st : Acc) (M : ℝ) (h : Inv S vr p st M) :
    ∃ M' : ℝ, Inv S vr (p + 1) (st.step (S p) (v p)) M' := by
  obtain ⟨hm, hl, ha, hb, j0, hj0, c0, hc0⟩ := h
  have hTtop : (Finset.univ : Finset (Fin w)).fold max ⊥ (S p) ≠ ⊤ :=
    foldmax_ne_top _ _ fun c _ => ne_top_of (hS p c)
  have hle : (M : EReal) ≤ max st.m ((Finset.univ : Finset (Fin w)).fold max ⊥ (S p)) := by
    rw [← hm]
    exact le_max_left _ _
  have hne_bot : max st.m ((Finset.univ : Finset (Fin w)).fold max ⊥ (S p)) ≠ ⊥ := by
    intro h0
    rw [h0] at hle
    exact EReal.coe_ne_bot M (le_bot_iff.1 hle)
  have hne_top : max st.m ((Finset.univ : Finset (Fin w)).fold max ⊥ (S p)) ≠ ⊤ := by
    rcases max_choice st.m ((Finset.univ : Finset (Fin w)).fold max ⊥ (S p)) with h1 | h1
    · rw [h1, hm]
      exact EReal.coe_ne_top M
    · rw [h1]
      exact hTtop
  obtain ⟨M', hM'⟩ := exists_real hne_bot hne_top
  rw [hM'] at hle
  refine ⟨M', ?_⟩
  rw [step_real st (S p) (v p) (vr p) _ _ M' (Or.inr ⟨M, hm⟩) hl ha (hS p) (hv p) hM']
  refine ⟨rfl, congrArg Real.toEReal ?_, congrArg Real.toEReal ?_, ?_, ?_⟩
  · rw [Finset.sum_range_succ, hm, wt_coe, Finset.mul_sum]
    congr 1
    refine Finset.sum_congr rfl fun j _ => ?_
    rw [Finset.mul_sum]
    exact Finset.sum_congr rfl fun c _ => exp_mul_wt M M' (S j c)
  · rw [Finset.sum_range_succ, hm, wt_coe, Finset.mul_sum]
    congr 1
    refine Finset.sum_congr rfl fun j _ => ?_
    rw [Finset.mul_sum]
    refine Finset.sum_congr rfl fun c _ => ?_
    rw [← mul_assoc, exp_mul_wt M M' (S j c)]
  · intro j hj c
    rcases Nat.lt_succ_iff_lt_or_eq.1 hj with hlt | rfl
    · exact (hb j hlt c).trans hle
    · rw [← hM']
      exact (le_foldmax Finset.univ (S j) (Finset.mem_univ c)).trans (le_max_right _ _)
  · rcases max_choice st.m ((Finset.univ : Finset (Fin w)).fold max ⊥ (S p)) with h1 | h1
    · refine ⟨j0, Nat.lt_succ_of_lt hj0, c0, ?_⟩
      rw [hc0, ← hm, ← h1, hM']
    · have hTbot : (Finset.univ : Finset (Fin w)).fold max ⊥ (S p) ≠ ⊥ := by
        rw [← h1]
        exact hne_bot
      obtain ⟨c, _, hc⟩ := foldmax_attained Finset.univ (S p) hTbot
      exact ⟨p, Nat.lt_succ_self p, c, by rw [hc, ← h1, hM']⟩

/-- After any positive number of tiles. -/
theorem run_inv {w : ℕ} (S v : ℕ → Fin w → EReal) (vr : ℕ → Fin w → ℝ)
    (hS : ∀ j c, S j c = ⊥ ∨ ∃ r : ℝ, S j c = (r : EReal)) (hv : ∀ j c, v j c = (vr j c : EReal))
    (h0 : ∃ c, ∃ r : ℝ, S 0 c = (r : EReal)) (p : ℕ) (hp : 1 ≤ p) :
    ∃ M : ℝ, Inv S vr p (run S v p) M := by
  induction p, hp using Nat.le_induction with
  | base => exact inv_one S v vr hS hv h0
  | succ p _ ih =>
    obtain ⟨M, hM⟩ := ih
    exact inv_succ S v vr hS hv p _ M hM

/-- The sum of the weights is positive, the maximum being one of the scores. -/
theorem sum_wt_pos {w : ℕ} (S : ℕ → Fin w → EReal) (p : ℕ) (M : ℝ) (j0 : ℕ) (hj0 : j0 < p) (c0 : Fin w)
    (hc0 : S j0 c0 = (M : EReal)) : 0 < ∑ j ∈ Finset.range p, ∑ c, wt (S j c) M := by
  have h1 : wt (S j0 c0) M ≤ ∑ c, wt (S j0 c) M :=
    Finset.single_le_sum (fun c _ => wt_nonneg _ _) (Finset.mem_univ c0)
  have h2 : ∑ c, wt (S j0 c) M ≤ ∑ j ∈ Finset.range p, ∑ c, wt (S j c) M :=
    Finset.single_le_sum (f := fun j => ∑ c, wt (S j c) M)
      (fun j _ => Finset.sum_nonneg fun c _ => wt_nonneg _ _) (Finset.mem_range.2 hj0)
  rw [hc0, wt_self] at h1
  linarith

/-! ### Positions as tile and column -/

/-- Position `c + w * j` is column `c` of tile `j`. -/
theorem tile_idx {w : ℕ} (hw : 0 < w) {α : Type*} (f : ℕ → Fin w → α) (j : ℕ) (c : Fin w) :
    f ((c.val + w * j) / w) ⟨(c.val + w * j) % w, Nat.mod_lt _ hw⟩ = f j c := by
  have h1 : (c.val + w * j) / w = j := by
    rw [Nat.add_mul_div_left _ _ hw, Nat.div_eq_of_lt c.isLt, Nat.zero_add]
  have h2 : (⟨(c.val + w * j) % w, Nat.mod_lt _ hw⟩ : Fin w) = c :=
    Fin.ext (show (c.val + w * j) % w = c.val by rw [Nat.add_mul_mod_self_left, Nat.mod_eq_of_lt c.isLt])
  rw [h1, h2]

/-- A sum over the `P * w` positions is the sum over tiles and columns, and the tiles from `p` on drop out when
    their terms vanish. -/
theorem sum_positions (P w p : ℕ) (hw : 0 < w) (hpP : p ≤ P) (f : ℕ → Fin w → ℝ)
    (hf : ∀ j, p ≤ j → ∀ c, f j c = 0) :
    ∑ k : Fin (P * w), f (k.val / w) ⟨k.val % w, Nat.mod_lt _ hw⟩
      = ∑ j ∈ Finset.range p, ∑ c, f j c := by
  refine ((finProdFinEquiv (m := P) (n := w)).sum_comp
    (fun k : Fin (P * w) => f (k.val / w) ⟨k.val % w, Nat.mod_lt _ hw⟩)).symm.trans ?_
  rw [Fintype.sum_prod_type]
  refine (Finset.sum_congr rfl fun j _ => Finset.sum_congr rfl fun c _ => tile_idx hw f j.val c).trans ?_
  rw [Fin.sum_univ_eq_sum_range (fun j => ∑ c, f j c) P]
  refine (Finset.sum_subset (Finset.range_subset_range.2 hpP) fun j _ hj => ?_).symm
  exact Finset.sum_eq_zero fun c _ => hf j (not_lt.1 fun hlt => hj (Finset.mem_range.2 hlt)) c

/-! ### The two sides as real quotients -/

/-- The one-pass form, the maximum being the real `M` and the sum of weights nonzero, is a real quotient. -/
theorem refOut_eq {n : ℕ} (S' v' : Fin n → EReal) (vr' : Fin n → ℝ) (M A L : ℝ)
    (hfold : (Finset.univ : Finset (Fin n)).fold max ⊥ S' = (M : EReal))
    (hS' : ∀ k, S' k = ⊥ ∨ ∃ r : ℝ, S' k = (r : EReal))
    (hv' : ∀ k, v' k = (vr' k : EReal))
    (hL : ∑ k, wt (S' k) M = L) (hA : ∑ k, wt (S' k) M * vr' k = A) (hL0 : L ≠ 0) :
    refOut S' v' = ((A / L : ℝ) : EReal) := by
  unfold refOut
  rw [hfold]
  simp only [exp_sub_coe (hS' _)]
  simp only [← coe_sum, hL]
  simp only [Ideal.div_coe hL0, hv', ← EReal.coe_mul]
  rw [← coe_sum]
  congr 1
  rw [← hA, eq_div_iff hL0, Finset.sum_mul]
  refine Finset.sum_congr rfl fun k _ => ?_
  field_simp

/-- The maximum over all positions is the maximum over the visited tiles. -/
theorem foldmax_positions (P w p : ℕ) (hw : 0 < w) (hpP : p ≤ P) (S : ℕ → Fin w → EReal) (M : ℝ)
    (hmask : ∀ j, p ≤ j → ∀ c, S j c = ⊥)
    (hb : ∀ j, j < p → ∀ c, S j c ≤ (M : EReal))
    (j0 : ℕ) (hj0 : j0 < p) (c0 : Fin w) (hc0 : S j0 c0 = (M : EReal)) :
    (Finset.univ : Finset (Fin (P * w))).fold max ⊥
        (fun k => S (k.val / w) ⟨k.val % w, Nat.mod_lt _ hw⟩) = (M : EReal) := by
  apply le_antisymm
  · refine (Finset.fold_max_le _).2 ⟨bot_le, fun k _ => ?_⟩
    by_cases hk : k.val / w < p
    · exact hb _ hk _
    · rw [hmask _ (not_lt.1 hk)]
      exact bot_le
  · have hle := le_foldmax Finset.univ
      (fun k : Fin (P * w) => S (k.val / w) ⟨k.val % w, Nat.mod_lt _ hw⟩)
      (Finset.mem_univ (finProdFinEquiv (⟨j0, lt_of_lt_of_le hj0 hpP⟩, c0)))
    change S ((c0.val + w * j0) / w) ⟨(c0.val + w * j0) % w, Nat.mod_lt _ hw⟩ ≤ _ at hle
    rwa [tile_idx hw S j0 c0, hc0] at hle

/-- THE LAW. `P` tiles of width `w`; every score a real or `⊥`, every value a real; the first tile holds a real score;
    the tiles from `p` on are wholly masked. Then the quotient after the first `p` tiles is the one-pass form over all
    `P * w` positions, position `k` being column `k % w` of tile `k / w`. -/
theorem online_eq (P w p : ℕ) (hw : 0 < w) (hp1 : 1 ≤ p) (hpP : p ≤ P)
    (S v : ℕ → Fin w → EReal)
    (hS : ∀ j c, S j c = ⊥ ∨ ∃ r : ℝ, S j c = (r : EReal))
    (hv : ∀ j c, ∃ r : ℝ, v j c = (r : EReal))
    (h0 : ∃ c, ∃ r : ℝ, S 0 c = (r : EReal))
    (hmask : ∀ j, p ≤ j → ∀ c, S j c = ⊥) :
    (run S v p).out
      = refOut (n := P * w) (fun k => S (k.val / w) ⟨k.val % w, Nat.mod_lt _ hw⟩)
          (fun k => v (k.val / w) ⟨k.val % w, Nat.mod_lt _ hw⟩) := by
  choose vr hvr using hv
  obtain ⟨M, hm, hl, ha, hb, j0, hj0, c0, hc0⟩ := run_inv S v vr hS hvr h0 p hp1
  have hLpos := sum_wt_pos S p M j0 hj0 c0 hc0
  have hout : (run S v p).out
      = (((∑ j ∈ Finset.range p, ∑ c, wt (S j c) M * vr j c)
          / (∑ j ∈ Finset.range p, ∑ c, wt (S j c) M) : ℝ) : EReal) := by
    rw [Acc.out, ha, hl, Ideal.div_coe hLpos.ne', ← EReal.coe_mul, mul_one_div]
  rw [hout]
  symm
  refine refOut_eq _ _ (fun k => vr (k.val / w) ⟨k.val % w, Nat.mod_lt _ hw⟩) M _ _
    (foldmax_positions P w p hw hpP S M hmask hb j0 hj0 c0 hc0)
    (fun k => hS _ _) (fun k => hvr _ _)
    (sum_positions P w p hw hpP (fun j c => wt (S j c) M) fun j hj c => ?_)
    (sum_positions P w p hw hpP (fun j c => wt (S j c) M * vr j c) fun j hj c => ?_)
    hLpos.ne'
  · show wt (S j c) M = 0
    rw [hmask j hj c, wt_bot]
  · show wt (S j c) M * vr j c = 0
    rw [hmask j hj c, wt_bot, zero_mul]

end Cert.Attn

end
-- ==== Proof.Spec.lean ====
/-
  The function both programs compute, on the extended reals: causal single-head attention with the score matrix
  `K Qᵀ / 8`. Row `t` of batch `b` weighs the value rows `s ≤ t` by the softmax of the scores
  `(∑ h, K[t,h] · Q[s,h]) · (1/8)`, the rows `s > t` masked to `⊥`; `Q`, `K`, `V` are the input's projections by the three
  weight arrays.
-/
import proofs.«411072_j44074954392146_3_alg».proof.Proof.Online
import Idealize.ShloMosaic.Lib.ValueIdx

noncomputable section

namespace Cert.Attn

open Idealize.ShloMosaic Idealize.ShloMosaic.ValueIdx

/-- The softmax scale `64 ^ (-1/2)`. -/
def c8 : EReal := ((1 / 8 : ℝ) : EReal)

/-- One projection: row `t` of batch `b` of the input against column `h` of a weight array. -/
def proj (x : (⟨3, ![8, 2048, 1024]⟩ : Shape).Idx → EReal) (w : (⟨2, ![1024, 64]⟩ : Shape).Idx → EReal)
    (b : Fin 8) (t : Fin 2048) (h : Fin 64) : EReal :=
  ∑ i : Fin 1024, x (ix3 b t i) * w (ix2 i h)

/-- The masked score of row `t` against position `s`: the scaled inner product of `K`'s row `t` and `Q`'s row `s` for
    `s ≤ t`, and `⊥` beyond the diagonal. -/
def mscore (K Q : Fin 2048 → Fin 64 → EReal) (t s : Fin 2048) : EReal :=
  if s.val ≤ t.val then (∑ h : Fin 64, K t h * Q s h) * c8 else ⊥

/-- Attention's row `t`, column `h`: the one-pass softmax-weighted sum of `V`'s column `h` under the masked scores. -/
def attn (Q K V : Fin 2048 → Fin 64 → EReal) (t : Fin 2048) (h : Fin 64) : EReal :=
  refOut (n := 2048) (fun s => mscore K Q t s) (fun s => V s h)

/-- The whole result array, from the four argument arrays. -/
def G (x : (⟨3, ![8, 2048, 1024]⟩ : Shape).Idx → EReal) (wq wk wv : (⟨2, ![1024, 64]⟩ : Shape).Idx → EReal) :
    (⟨3, ![8, 2048, 64]⟩ : Shape).Idx → EReal :=
  fun j => attn (fun s h => proj x wq (j 0) s h) (fun s h => proj x wk (j 0) s h) (fun s h => proj x wv (j 0) s h) (j 1) (j 2)

/-- A projection of real arrays is real. -/
theorem proj_real (x : (⟨3, ![8, 2048, 1024]⟩ : Shape).Idx → EReal) (w : (⟨2, ![1024, 64]⟩ : Shape).Idx → EReal)
    (hx : ∀ i, ∃ r : ℝ, x i = (r : EReal)) (hw : ∀ i, ∃ r : ℝ, w i = (r : EReal)) (b : Fin 8) (t : Fin 2048) (h : Fin 64) :
    ∃ r : ℝ, proj x w b t h = (r : EReal) := by
  choose xr hxr using hx
  choose wr hwr using hw
  refine ⟨∑ i : Fin 1024, xr (ix3 b t i) * wr (ix2 i h), ?_⟩
  unfold proj
  simp only [hxr, hwr, ← EReal.coe_mul]
  induction (Finset.univ : Finset (Fin 1024)) using Finset.induction_on with
  | empty => simp
  | insert a s ha ih => rw [Finset.sum_insert ha, Finset.sum_insert ha, ih, EReal.coe_add]

end Cert.Attn

end
-- ==== Proof.TileOps.lean ====
/-
  The tile recurrence's operations read entry by entry at the extended reals: a score tile's entry is the inner product
  of the scaled row operand's row with the column operand's row; the causal mask keeps entry (r, c) for `c ≤ r` and puts
  `⊥` elsewhere; a 512-row tile of a scratch array read at an entry is the array's entry in that row block.
-/
import proofs.«411072_j44074954392146_3_alg».proof.Proof.Tile
import proofs.«411072_j44074954392146_3_alg».proof.Proof.Spec
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws
import Idealize.ShloMosaic.PureOps.IdealRules

noncomputable section

namespace Cert.TileOps

open Cert.KernelIdeal Cert.KernelIdeal.Tile Cert.Attn
open Idealize.ShloMosaic Idealize.ShloMosaic.ValueIdx

variable [Cert.KernelIdeal.Facts]

/-- The masked-position filler is `⊥` at the extended reals. -/
theorem negBig_eq : (negBig (F := Ideal) : EReal) = ⊥ :=
  IdealRules.named_const.ideal_named_scalar _ _ _ _ rfl

/-- The bf16 pattern `0x3E00` is `2⁻³`, the scale 1/8. -/
theorem scale_eq : (Scalar.ofBits (F := Ideal) .bf16 0x3E00#16 : EReal) = c8 := by
  show Ideal.ofBits .bf16 0x3E00#16 = c8
  unfold c8
  simp [Ideal.ofBits, Ideal.ieee, -EReal.coe_mul]
  norm_num

theorem lhs_score_0 (i : S512x512.Idx) (q : dot_S512x64_S64x512_S512x512_1_0_0_1_n_n.contr.Idx) :
    (dot_S512x64_S64x512_S512x512_1_0_0_1_n_n.lhsIdx i q 0).val = (i 0).val := by
  unfold DotDims.lhsIdx
  rw [dif_neg (show ¬(0 : Fin S512x64.rank) ∈ dot_S512x64_S64x512_S512x512_1_0_0_1_n_n.lhsBatch from List.not_mem_nil), dif_pos (show (0 : Fin S512x64.rank) ∈ dot_S512x64_S64x512_S512x512_1_0_0_1_n_n.lhsNonContracting from List.mem_singleton.mpr rfl)]
  rfl
theorem lhs_score_1 (i : S512x512.Idx) (q : dot_S512x64_S64x512_S512x512_1_0_0_1_n_n.contr.Idx) :
    (dot_S512x64_S64x512_S512x512_1_0_0_1_n_n.lhsIdx i q 1).val = (q ⟨0, Nat.one_pos⟩).val :=
  dot_S512x64_S64x512_S512x512_1_0_0_1_n_n.lhsIdx_val_of_single rfl i q
theorem rhs_score_0 (i : S512x512.Idx) (q : dot_S512x64_S64x512_S512x512_1_0_0_1_n_n.contr.Idx) :
    (dot_S512x64_S64x512_S512x512_1_0_0_1_n_n.rhsIdx i q 0).val = (q ⟨0, Nat.one_pos⟩).val :=
  dot_S512x64_S64x512_S512x512_1_0_0_1_n_n.rhsIdx_val_of_single rfl i q
theorem rhs_score_1 (i : S512x512.Idx) (q : dot_S512x64_S64x512_S512x512_1_0_0_1_n_n.contr.Idx) :
    (dot_S512x64_S64x512_S512x512_1_0_0_1_n_n.rhsIdx i q 1).val = (i 1).val := by
  unfold DotDims.rhsIdx
  rw [dif_neg (show ¬(1 : Fin S64x512.rank) ∈ dot_S512x64_S64x512_S512x512_1_0_0_1_n_n.rhsBatch from List.not_mem_nil), dif_pos (show (1 : Fin S64x512.rank) ∈ dot_S512x64_S64x512_S512x512_1_0_0_1_n_n.rhsNonContracting from List.mem_singleton.mpr rfl)]
  rfl

/-- The block product into the zero accumulator, read at an entry: the sum over the contracted axis. -/
theorem score_mm_apply (a : FVec Ideal S512x64 .bf16) (b : FVec Ideal S64x512 .bf16) (r c : Fin 512) :
    matmul dot_S512x64_S64x512_S512x512_1_0_0_1_n_n none a b (constant S512x512 .f32 0x00000000#32) (ix2 r c)
      = ∑ h : Fin 64, a (ix2 r h) * b (ix2 h c) := by
  simp only [matmul]
  rw [Ideal.matmul_constant_zero_apply, ← Equiv.sum_comp (ValueIdx.contrEquiv1 dot_S512x64_S64x512_S512x512_1_0_0_1_n_n 64 rfl rfl).symm]
  refine Finset.sum_congr rfl fun k _ => ?_
  have hk := ValueIdx.contrEquiv1_symm_val dot_S512x64_S64x512_S512x512_1_0_0_1_n_n 64 rfl rfl k
  have el : dot_S512x64_S64x512_S512x512_1_0_0_1_n_n.lhsIdx (ix2 r c) ((ValueIdx.contrEquiv1 dot_S512x64_S64x512_S512x512_1_0_0_1_n_n 64 rfl rfl).symm k) = ix2 r k := funext fun x => Fin.ext (by
    match x with
    | ⟨0, _⟩ => exact lhs_score_0 _ _
    | ⟨1, _⟩ => exact (lhs_score_1 _ _).trans hk)
  have er : dot_S512x64_S64x512_S512x512_1_0_0_1_n_n.rhsIdx (ix2 r c) ((ValueIdx.contrEquiv1 dot_S512x64_S64x512_S512x512_1_0_0_1_n_n 64 rfl rfl).symm k) = ix2 k c := funext fun x => Fin.ext (by
    match x with
    | ⟨0, _⟩ => exact (rhs_score_0 _ _).trans hk
    | ⟨1, _⟩ => exact rhs_score_1 _ _)
  rw [el, er]

/-- A score tile's entry: the row operand's row, scaled by 1/8, against the column operand's row. -/
theorem scoreT_apply (kt qt : Vec Ideal S512x64 .bf16) (r c : Fin 512) :
    scoreT (F := Ideal) kt qt (ix2 r c) = ∑ h : Fin 64, (kt (ix2 r h) * c8) * qt (ix2 c h) := by
  unfold scoreT
  refine (score_mm_apply _ _ r c).trans ?_
  refine Finset.sum_congr rfl fun h _ => ?_
  rw [mulf_apply, broadcast_apply, scale_eq, transpose_ix2_apply]

/-- The causal mask on a diagonal tile starting at row and column `off`. -/
theorem maskT_apply (off : ℕ) (hoff : off + 512 ≤ 2048) (s : FVec Ideal S512x512 .f32) (r c : Fin 512) :
    maskT (F := Ideal) (BitVec.ofNat 32 off) s (ix2 r c) = if c.val ≤ r.val then s (ix2 r c) else ⊥ := by
  have hr := r.isLt
  have hc := c.isLt
  have e0 : iota .tc S512x512 32 [0] Facts₀.iota_S512x512_d0_w32 (ix2 r c) = BitVec.ofNat 32 r.val :=
    congrArg (BitVec.ofNat 32) (show 0 * 512 + r.val = r.val by omega)
  have e1 : iota .tc S512x512 32 [1] Facts₀.iota_S512x512_d1_w32 (ix2 r c) = BitVec.ofNat 32 c.val :=
    congrArg (BitVec.ofNat 32) (show 0 * 512 + c.val = c.val by omega)
  have ha : (IntOp.addi (BitVec.ofNat 32 off) (BitVec.ofNat 32 r.val)).toNat = off + r.val := by
    simp only [IntOp.addi, BitVec.toNat_add, BitVec.toNat_ofNat]; omega
  have hb : (IntOp.addi (BitVec.ofNat 32 off) (BitVec.ofNat 32 c.val)).toNat = off + c.val := by
    simp only [IntOp.addi, BitVec.toNat_add, BitVec.toNat_ofNat]; omega
  show Scalar.select (IntOp.cmpi .sge (IntOp.addi (BitVec.ofNat 32 off) (iota .tc S512x512 32 [0] Facts₀.iota_S512x512_d0_w32 (ix2 r c)))
      (IntOp.addi (BitVec.ofNat 32 off) (iota .tc S512x512 32 [1] Facts₀.iota_S512x512_d1_w32 (ix2 r c)))) (s (ix2 r c)) (negBig (F := Ideal)) = _
  rw [e0, e1]
  have key := StableHlo.Predicate.sge_iff_toNat (a := IntOp.addi (BitVec.ofNat 32 off) (BitVec.ofNat 32 r.val))
    (b := IntOp.addi (BitVec.ofNat 32 off) (BitVec.ofNat 32 c.val)) (by omega) (by omega)
  by_cases h : c.val ≤ r.val
  · rw [if_pos h, key.mpr (by omega), select_one]
  · have hz : IntOp.cmpi .sge (IntOp.addi (BitVec.ofNat 32 off) (BitVec.ofNat 32 r.val))
        (IntOp.addi (BitVec.ofNat 32 off) (BitVec.ofNat 32 c.val)) = 0#1 :=
      eq_zero_of_ne_one (fun h1 => h (by have := key.mp h1; omega))
    rw [if_neg h, hz, select_zero]
    exact negBig_eq

/-- A 512-row tile of a [2048, 64] array, read at an entry. -/
theorem sub0_apply (A : Vec Ideal S2048x64 .bf16) (r : Fin 512) (h : Fin 64) : sub0 A (ix2 r h) = A (ix2 (⟨r.val, by omega⟩ : Fin 2048) h) := by
  refine congrArg A (funext fun a => Fin.ext ?_)
  match a with
  | ⟨0, _⟩ => show 0 + 1 * r.val = r.val; omega
  | ⟨1, _⟩ => show 0 + 1 * h.val = h.val; omega
theorem sub1_apply (A : Vec Ideal S2048x64 .bf16) (r : Fin 512) (h : Fin 64) : sub1 A (ix2 r h) = A (ix2 (⟨512 + r.val, by omega⟩ : Fin 2048) h) := by
  refine congrArg A (funext fun a => Fin.ext ?_)
  match a with
  | ⟨0, _⟩ => show 512 + 1 * r.val = 512 + r.val; omega
  | ⟨1, _⟩ => show 0 + 1 * h.val = h.val; omega
theorem sub2_apply (A : Vec Ideal S2048x64 .bf16) (r : Fin 512) (h : Fin 64) : sub2 A (ix2 r h) = A (ix2 (⟨1024 + r.val, by omega⟩ : Fin 2048) h) := by
  refine congrArg A (funext fun a => Fin.ext ?_)
  match a with
  | ⟨0, _⟩ => show 1024 + 1 * r.val = 1024 + r.val; omega
  | ⟨1, _⟩ => show 0 + 1 * h.val = h.val; omega
theorem sub3_apply (A : Vec Ideal S2048x64 .bf16) (r : Fin 512) (h : Fin 64) : sub3 A (ix2 r h) = A (ix2 (⟨1536 + r.val, by omega⟩ : Fin 2048) h) := by
  refine congrArg A (funext fun a => Fin.ext ?_)
  match a with
  | ⟨0, _⟩ => show 1536 + 1 * r.val = 1536 + r.val; omega
  | ⟨1, _⟩ => show 0 + 1 * h.val = h.val; omega

end Cert.TileOps

end
-- ==== Proof.TileStep.lean ====
/-
  One step of the vector recurrence on 512 rows, read at a row r and at column h of the weighted sum, is one step of the
  scalar recurrence of the online law on that row's scores and that column's values; the initial vector state reads as
  the initial scalar state, and the output tile's entry is the scalar state's quotient.
-/
import proofs.«411072_j44074954392146_3_alg».proof.Proof.TileOps

noncomputable section

namespace Cert.TileOps

open Cert.KernelIdeal Cert.KernelIdeal.Tile Cert.Attn
open Idealize.ShloMosaic Idealize.ShloMosaic.ValueIdx
open Cert.KernelIdeal.Facts₀ Cert.KernelIdeal.Facts

variable [Cert.KernelIdeal.Facts]

/-- The vector state read at row `r` (and column `h` of the weighted sum): the scalar state of the online law. -/
def accOf (st : St Ideal) (r : Fin 512) (h : Fin 64) : Acc :=
  ⟨st.m (ix2 r (0 : Fin 1)), st.l (ix2 r (0 : Fin 1)), st.acc (ix2 r h)⟩

/-! ### A vector as a one-column matrix, and a one-column matrix spread over columns, read at an entry -/

section Layout
variable {α : Type}

/-- A `[512]` array cast to the column `[512, 1]` reads, at `(i, u)`, the operand at `i`. -/
theorem shapeCast_col_apply (x : (⟨1, ![512]⟩ : Shape).Idx → α)
    (h : (⟨1, ![512]⟩ : Shape).ShapeCasts ⟨2, ![512, 1]⟩) (i : Fin 512) (u : Fin 1) :
    shapeCast ⟨2, ![512, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[512, 1]` broadcast to `[512, 512]` reads, at `(p, c)`, the column's entry in row `p`. -/
theorem broadcastTo_col512_apply (v : (⟨2, ![512, 1]⟩ : Shape).Idx → α)
    (h : (⟨2, ![512, 1]⟩ : Shape).Broadcasts ⟨2, ![512, 512]⟩) (p : Fin 512) (c : Fin 512) :
    broadcastTo ⟨2, ![512, 512]⟩ v h (ix2 p c) = v (ix2 p (0 : Fin 1)) := by
  refine broadcastTo_apply v h (ix2 p c) (ix2 p (0 : Fin 1)) fun ax => ?_
  match ax with
  | ⟨0, _⟩ => exact (if_neg (show ¬(512 : ℕ) = 1 by decide)).symm
  | ⟨1, _⟩ => exact (if_pos (rfl : (1 : ℕ) = 1)).symm

/-- A column `[512, 1]` broadcast to `[512, 64]` reads, at `(p, c)`, the column's entry in row `p`. -/
theorem broadcastTo_col64_apply (v : (⟨2, ![512, 1]⟩ : Shape).Idx → α)
    (h : (⟨2, ![512, 1]⟩ : Shape).Broadcasts ⟨2, ![512, 64]⟩) (p : Fin 512) (c : Fin 64) :
    broadcastTo ⟨2, ![512, 64]⟩ v h (ix2 p c) = v (ix2 p (0 : Fin 1)) := by
  refine broadcastTo_apply v h (ix2 p c) (ix2 p (0 : Fin 1)) fun ax => ?_
  match ax with
  | ⟨0, _⟩ => exact (if_neg (show ¬(512 : ℕ) = 1 by decide)).symm
  | ⟨1, _⟩ => exact (if_pos (rfl : (1 : ℕ) = 1)).symm

end Layout

/-! ### The row reductions -/

/-- The index of a `[512, 512]` array over row `r` of its row reduction, with column `c` put back. -/
theorem lift_row (hr : S512x512.Reduces [1] S512) (r c : Fin 512) : hr.lift (ix1 r) c = ix2 r c := by
  funext a
  match a with
  | ⟨0, _⟩ => exact Fin.ext rfl
  | ⟨1, _⟩ => exact Fin.ext rfl

/-- The pattern of `-∞` denotes `⊥`. -/
theorem ofBits_f32_negInf : Ideal.ofBits .f32 0xFF800000#32 = (⊥ : EReal) := by
  simp [Ideal.ofBits, Ideal.ieee]

/-- A row maximum: the fold of `max` from `⊥` over the row's entries. -/
theorem rowMax_apply (s : FVec Ideal S512x512 .f32) (hr : S512x512.Reduces [1] S512) (hφ : FKind.Formats .f32)
    (hacc : (0xFF800000#32 : BitVec 32) = FKind.maximumf.neutral .f32 hφ) (r : Fin 512) :
    multiReduction (F := Ideal) .maximumf [1] S512 s 0xFF800000#32 hr hφ hacc (ix1 r)
      = (Finset.univ : Finset (Fin 512)).fold max ⊥ (fun c => s (ix2 r c)) := by
  refine (Ideal.multiReduction_maximumf_single s 0xFF800000#32 hr hφ hacc (ix1 r)).trans ?_
  show (Finset.univ : Finset (Fin 512)).fold max (Ideal.ofBits .f32 0xFF800000#32) (fun c : Fin 512 => s (hr.lift (ix1 r) c)) = _
  have e : (fun c : Fin 512 => s (hr.lift (ix1 r) c)) = fun c : Fin 512 => s (ix2 r c) :=
    funext fun c => congrArg s (lift_row hr r c)
  rw [e, ofBits_f32_negInf]

/-- A row sum: the sum of the row's entries. -/
theorem rowSum_apply (p : FVec Ideal S512x512 .f32) (hr : S512x512.Reduces [1] S512) (hφ : FKind.Formats .f32)
    (hacc : (0x00000000#32 : BitVec 32) = FKind.add.neutral .f32 hφ) (r : Fin 512) :
    multiReduction (F := Ideal) .add [1] S512 p 0x00000000#32 hr hφ hacc (ix1 r) = ∑ c : Fin 512, p (ix2 r c) := by
  refine (Ideal.multiReduction_add_single p 0x00000000#32 hr hφ hacc (ix1 r)).trans ?_
  show ∑ c : Fin 512, p (hr.lift (ix1 r) c) = _
  exact Finset.sum_congr rfl fun c _ => congrArg p (lift_row hr r c)

/-! ### The product of the weights with the value rows -/

theorem lhs_pv_0 (i : S512x64.Idx) (q : dot_S512x512_S512x64_S512x64_1_0_0_1_n_n.contr.Idx) :
    (dot_S512x512_S512x64_S512x64_1_0_0_1_n_n.lhsIdx i q 0).val = (i 0).val := by
  unfold DotDims.lhsIdx
  rw [dif_neg (show ¬(0 : Fin S512x512.rank) ∈ dot_S512x512_S512x64_S512x64_1_0_0_1_n_n.lhsBatch from List.not_mem_nil), dif_pos (show (0 : Fin S512x512.rank) ∈ dot_S512x512_S512x64_S512x64_1_0_0_1_n_n.lhsNonContracting from List.mem_singleton.mpr rfl)]
  rfl
theorem lhs_pv_1 (i : S512x64.Idx) (q : dot_S512x512_S512x64_S512x64_1_0_0_1_n_n.contr.Idx) :
    (dot_S512x512_S512x64_S512x64_1_0_0_1_n_n.lhsIdx i q 1).val = (q ⟨0, (Nat.one_pos : 0 < dot_S512x512_S512x64_S512x64_1_0_0_1_n_n.contr.rank)⟩).val :=
  dot_S512x512_S512x64_S512x64_1_0_0_1_n_n.lhsIdx_val_of_single rfl i q
theorem rhs_pv_0 (i : S512x64.Idx) (q : dot_S512x512_S512x64_S512x64_1_0_0_1_n_n.contr.Idx) :
    (dot_S512x512_S512x64_S512x64_1_0_0_1_n_n.rhsIdx i q 0).val = (q ⟨0, (Nat.one_pos : 0 < dot_S512x512_S512x64_S512x64_1_0_0_1_n_n.contr.rank)⟩).val :=
  dot_S512x512_S512x64_S512x64_1_0_0_1_n_n.rhsIdx_val_of_single rfl i q
theorem rhs_pv_1 (i : S512x64.Idx) (q : dot_S512x512_S512x64_S512x64_1_0_0_1_n_n.contr.Idx) :
    (dot_S512x512_S512x64_S512x64_1_0_0_1_n_n.rhsIdx i q 1).val = (i 1).val := by
  unfold DotDims.rhsIdx
  rw [dif_neg (show ¬(1 : Fin S512x64.rank) ∈ dot_S512x512_S512x64_S512x64_1_0_0_1_n_n.rhsBatch from List.not_mem_nil), dif_pos (show (1 : Fin S512x64.rank) ∈ dot_S512x512_S512x64_S512x64_1_0_0_1_n_n.rhsNonContracting from List.mem_singleton.mpr rfl)]
  rfl

/-- The product of a `[512, 512]` tile of weights with `[512, 64]` value rows, into a zero accumulator, at `(r, h)`:
    the sum over the columns `c` of the weight at `(r, c)` times the value at `(c, h)`. -/
theorem pv_apply (p : FVec Ideal S512x512 .bf16) (val : FVec Ideal S512x64 .bf16) (r : Fin 512) (h : Fin 64) :
    matmul dot_S512x512_S512x64_S512x64_1_0_0_1_n_n none p val (constant (F := Ideal) S512x64 .f32 0x00000000#32) (ix2 r h)
      = ∑ c : Fin 512, p (ix2 r c) * val (ix2 c h) := by
  refine (Ideal.matmul_constant_zero_apply dot_S512x512_S512x64_S512x64_1_0_0_1_n_n none p val (ix2 r h)).trans ?_
  rw [← Equiv.sum_comp (ValueIdx.contrEquiv1 dot_S512x512_S512x64_S512x64_1_0_0_1_n_n 512 rfl rfl).symm]
  refine Finset.sum_congr rfl fun k _ => ?_
  have hk := ValueIdx.contrEquiv1_symm_val dot_S512x512_S512x64_S512x64_1_0_0_1_n_n 512 rfl rfl k
  have el : dot_S512x512_S512x64_S512x64_1_0_0_1_n_n.lhsIdx (ix2 r h) ((ValueIdx.contrEquiv1 dot_S512x512_S512x64_S512x64_1_0_0_1_n_n 512 rfl rfl).symm k) = ix2 r k := funext fun a => Fin.ext (by
    match a with
    | ⟨0, _⟩ => exact lhs_pv_0 _ _
    | ⟨1, _⟩ => exact (lhs_pv_1 _ _).trans hk)
  have er : dot_S512x512_S512x64_S512x64_1_0_0_1_n_n.rhsIdx (ix2 r h) ((ValueIdx.contrEquiv1 dot_S512x512_S512x64_S512x64_1_0_0_1_n_n 512 rfl rfl).symm k) = ix2 k h := funext fun a => Fin.ext (by
    match a with
    | ⟨0, _⟩ => exact (rhs_pv_0 _ _).trans hk
    | ⟨1, _⟩ => exact rhs_pv_1 _ _)
  rw [el, er]

/-! ### The recurrence's pieces at an entry -/

/-- The new running maximum in row `r`: the old one against the row maximum of the scores. -/
theorem mnew_apply (st : St Ideal) (s : FVec Ideal S512x512 .f32) (r : Fin 512) :
    st.mnew s (ix2 r (0 : Fin 1))
      = max (st.m (ix2 r (0 : Fin 1))) ((Finset.univ : Finset (Fin 512)).fold max ⊥ (fun c => s (ix2 r c))) := by
  show max (st.m (ix2 r (0 : Fin 1)))
      (shapeCast S512x1 (multiReduction (F := Ideal) .maximumf [1] S512 s 0xFF800000#32 reduces_S512x512_S512 (.inl rfl) rfl)
        shapeCasts_S512_S512x1 (ix2 r (0 : Fin 1))) = _
  refine congrArg (max (st.m (ix2 r (0 : Fin 1)))) ?_
  refine (shapeCast_col_apply _ shapeCasts_S512_S512x1 r (0 : Fin 1)).trans ?_
  exact rowMax_apply s reduces_S512x512_S512 (.inl rfl) rfl r

/-- The rescaling factor in row `r`. -/
theorem alpha_apply (st : St Ideal) (s : FVec Ideal S512x512 .f32) (r : Fin 512) :
    st.alpha s (ix2 r (0 : Fin 1)) = Ideal.exp (st.m (ix2 r (0 : Fin 1)) - st.mnew s (ix2 r (0 : Fin 1))) := rfl

/-- The weight at `(r, c)`. -/
theorem pw_apply (st : St Ideal) (s : FVec Ideal S512x512 .f32) (r c : Fin 512) :
    st.pw s (ix2 r c) = Ideal.exp (s (ix2 r c) - st.mnew s (ix2 r (0 : Fin 1))) := by
  show Ideal.exp (s (ix2 r c) - broadcastTo S512x512 (st.mnew s) broadcasts_S512x1_S512x512 (ix2 r c)) = _
  rw [broadcastTo_col512_apply (st.mnew s) broadcasts_S512x1_S512x512 r c]

/-- The new sum of weights in row `r`. -/
theorem step_l_apply (st : St Ideal) (s : FVec Ideal S512x512 .f32) (val : Vec Ideal S512x64 .bf16) (r : Fin 512) :
    (st.step s val).l (ix2 r (0 : Fin 1))
      = st.alpha s (ix2 r (0 : Fin 1)) * st.l (ix2 r (0 : Fin 1)) + ∑ c : Fin 512, st.pw s (ix2 r c) := by
  show st.alpha s (ix2 r (0 : Fin 1)) * st.l (ix2 r (0 : Fin 1))
      + shapeCast S512x1 (multiReduction (F := Ideal) .add [1] S512 (st.pw s) 0x00000000#32 reduces_S512x512_S512 (.inl rfl) rfl)
          shapeCasts_S512_S512x1 (ix2 r (0 : Fin 1)) = _
  refine congrArg (st.alpha s (ix2 r (0 : Fin 1)) * st.l (ix2 r (0 : Fin 1)) + ·) ?_
  refine (shapeCast_col_apply _ shapeCasts_S512_S512x1 r (0 : Fin 1)).trans ?_
  exact rowSum_apply (st.pw s) reduces_S512x512_S512 (.inl rfl) rfl r

/-- The new weighted sum at `(r, h)`. -/
theorem step_acc_apply (st : St Ideal) (s : FVec Ideal S512x512 .f32) (val : FVec Ideal S512x64 .bf16) (r : Fin 512) (h : Fin 64) :
    (st.step s val).acc (ix2 r h)
      = st.alpha s (ix2 r (0 : Fin 1)) * st.acc (ix2 r h) + ∑ c : Fin 512, st.pw s (ix2 r c) * val (ix2 c h) := by
  show broadcastTo S512x64 (st.alpha s) broadcasts_S512x1_S512x64 (ix2 r h) * st.acc (ix2 r h)
      + matmul dot_S512x512_S512x64_S512x64_1_0_0_1_n_n none (truncf .bf16 (st.pw s) bitsLt_bf16_f32) val (constant (F := Ideal) S512x64 .f32 0x00000000#32) (ix2 r h) = _
  rw [broadcastTo_col64_apply (st.alpha s) broadcasts_S512x1_S512x64 r h]
  refine congrArg (st.alpha s (ix2 r (0 : Fin 1)) * st.acc (ix2 r h) + ·) ?_
  exact pv_apply (truncf .bf16 (st.pw s) bitsLt_bf16_f32) val r h

theorem accOf_init (r : Fin 512) (h : Fin 64) : accOf (St.init (F := Ideal)) r h = Acc.init := by
  show (⟨negBig (F := Ideal), Ideal.ofBits .f32 0x00000000#32, Ideal.ofBits .f32 0x00000000#32⟩ : Acc) = ⟨⊥, 0, 0⟩
  rw [negBig_eq, Ideal.ofBits_zero_f32]

theorem accOf_step (st : St Ideal) (s : FVec Ideal S512x512 .f32) (val : Vec Ideal S512x64 .bf16) (r : Fin 512) (h : Fin 64) :
    accOf (st.step s val) r h = (accOf st r h).step (fun c : Fin 512 => s (ix2 r c)) (fun c : Fin 512 => val (ix2 c h)) := by
  have hm := mnew_apply st s r
  have hl := step_l_apply st s val r
  have ha := step_acc_apply st s val r h
  show (⟨st.mnew s (ix2 r (0 : Fin 1)), (st.step s val).l (ix2 r (0 : Fin 1)), (st.step s val).acc (ix2 r h)⟩ : Acc) = _
  rw [hl, ha, alpha_apply]
  simp only [pw_apply]
  rw [hm]
  rfl

theorem out_apply (st : St Ideal) (r : Fin 512) (h : Fin 64) :
    st.out (ix3 (0 : Fin 1) r h) = (accOf st r h).out := by
  show shapeCast S1x512x64 (divf st.acc (broadcastTo S512x64 st.l broadcasts_S512x1_S512x64)) shapeCasts_S512x64_S1x512x64
      (ix3 (0 : Fin 1) r h) = Ideal.div (st.acc (ix2 r h)) (st.l (ix2 r (0 : Fin 1)))
  refine (shapeCast_ab_1ab_apply _ shapeCasts_S512x64_S1x512x64 (0 : Fin 1) r h).trans ?_
  show Ideal.div (st.acc (ix2 r h)) (broadcastTo S512x64 st.l broadcasts_S512x1_S512x64 (ix2 r h)) = _
  rw [broadcastTo_col64_apply st.l broadcasts_S512x1_S512x64 r h]

end Cert.TileOps

end
-- ==== Proof.TileIdeal.lean ====
/-
  The kernel's row tiles read at the extended reals: entry (r, h) of output row tile j — the tile-by-tile softmax
  recurrence over the column tiles 0 … j, the diagonal one masked — is attention's row 512 j + r, column h, of the three
  scratch arrays read as real matrices: the recurrence's quotient is the one-pass softmax-weighted sum (the online law),
  the column tiles beyond the diagonal and the masked half of the diagonal tile contributing nothing.
-/
import proofs.«411072_j44074954392146_3_alg».proof.Proof.TileStep
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules
import Mathlib.Data.EReal.Basic
import Mathlib.Algebra.BigOperators.Ring.Finset
import Mathlib.Tactic.Ring
import Mathlib.Tactic.NormNum

noncomputable section

namespace Cert.TileIdeal

open Cert.KernelIdeal Cert.KernelIdeal.Tile Cert.Attn Cert.TileOps
open Idealize.ShloMosaic Idealize.ShloMosaic.ValueIdx

variable [Cert.KernelIdeal.Facts]

/-- A [2048, 64] array read as a matrix of rows. -/
def rows (A : Vec Ideal S2048x64 .bf16) : Fin 2048 → Fin 64 → EReal := fun s h => A (ix2 s h)

/-! ### Inner products of real rows -/

/-- The inner product of two real rows, scaled afterwards, is the embedded real number. -/
theorem dot_coe (a b : Fin 64 → ℝ) :
    (∑ h : Fin 64, ((a h : ℝ) : EReal) * ((b h : ℝ) : EReal)) * c8
      = (((∑ h : Fin 64, a h * b h) * (1 / 8) : ℝ) : EReal) := by
  unfold c8
  simp only [← EReal.coe_mul, ← coe_sum]

/-- Scaling the first row entry by entry gives the same real number. -/
theorem dot_scaled_coe (a b : Fin 64 → ℝ) :
    (∑ h : Fin 64, (((a h : ℝ) : EReal) * c8) * ((b h : ℝ) : EReal))
      = (((∑ h : Fin 64, a h * b h) * (1 / 8) : ℝ) : EReal) := by
  unfold c8
  simp only [← EReal.coe_mul, ← coe_sum]
  congr 1
  rw [Finset.sum_mul]
  exact Finset.sum_congr rfl fun h _ => by ring

/-- The scaled inner product of a row of `K` and a row of `Q` is real. -/
theorem dot_real (Q K : Vec Ideal S2048x64 .bf16)
    (hQ : ∀ i, ∃ x : ℝ, Q i = (x : EReal)) (hK : ∀ i, ∃ x : ℝ, K i = (x : EReal)) (t s : Fin 2048) :
    ∃ x : ℝ, (∑ h : Fin 64, rows K t h * rows Q s h) * c8 = (x : EReal) := by
  choose Qr hQr using hQ
  choose Kr hKr using hK
  refine ⟨(∑ h : Fin 64, Kr (ix2 t h) * Qr (ix2 s h)) * (1 / 8), ?_⟩
  rw [← dot_coe (fun h => Kr (ix2 t h)) (fun h => Qr (ix2 s h))]
  simp only [rows, hKr, hQr]

/-- A score tile's entry, its row operand's row being row `t` of `K` and its column operand's row being row `s` of
    `Q`: the inner product of the two rows, scaled. -/
theorem score_eq (Q K : Vec Ideal S2048x64 .bf16)
    (hQ : ∀ i, ∃ x : ℝ, Q i = (x : EReal)) (hK : ∀ i, ∃ x : ℝ, K i = (x : EReal))
    (kt qt : Vec Ideal S512x64 .bf16) (t s : Fin 2048) (r c : Fin 512)
    (hk : ∀ h, kt (ix2 r h) = K (ix2 t h)) (hq : ∀ h, qt (ix2 c h) = Q (ix2 s h)) :
    scoreT (F := Ideal) kt qt (ix2 r c) = (∑ h : Fin 64, rows K t h * rows Q s h) * c8 := by
  choose Qr hQr using hQ
  choose Kr hKr using hK
  rw [scoreT_apply]
  simp only [hk, hq, rows, hKr, hQr]
  rw [dot_coe (fun h => Kr (ix2 t h)) (fun h => Qr (ix2 s h)),
    dot_scaled_coe (fun h => Kr (ix2 t h)) (fun h => Qr (ix2 s h))]

/-! ### Scores and values at any natural position -/

/-- The masked score of row `t` against position `s`, any natural `s`: `⊥` beyond `t`. -/
def scoreN (Q K : Vec Ideal S2048x64 .bf16) (t : Fin 2048) (s : ℕ) : EReal :=
  if hs : s ≤ t.val then (∑ h : Fin 64, rows K t h * rows Q ⟨s, lt_of_le_of_lt hs t.isLt⟩ h) * c8 else ⊥

/-- Column `h` of `V` at position `s`, any natural `s`: zero beyond the array. -/
def valN (V : Vec Ideal S2048x64 .bf16) (h : Fin 64) (s : ℕ) : EReal :=
  if hs : s < 2048 then rows V ⟨s, hs⟩ h else 0

theorem scoreN_eq (Q K : Vec Ideal S2048x64 .bf16) (t k : Fin 2048) :
    scoreN Q K t k.val = mscore (rows K) (rows Q) t k := by
  unfold scoreN mscore
  by_cases hk : k.val ≤ t.val
  · rw [dif_pos hk, if_pos hk]
  · rw [dif_neg hk, if_neg hk]

theorem valN_eq (V : Vec Ideal S2048x64 .bf16) (h : Fin 64) (k : Fin 2048) : valN V h k.val = rows V k h := by
  unfold valN
  rw [dif_pos k.isLt]

/-- Row `t`'s scores, tile by tile: column `c` of tile `jj` is position `512 jj + c`. -/
def Sf (Q K : Vec Ideal S2048x64 .bf16) (t : Fin 2048) : ℕ → Fin 512 → EReal :=
  fun jj c => scoreN Q K t (512 * jj + c.val)

/-- Column `h` of the values, tile by tile. -/
def vf (V : Vec Ideal S2048x64 .bf16) (h : Fin 64) : ℕ → Fin 512 → EReal :=
  fun jj c => valN V h (512 * jj + c.val)

theorem Sf_le (Q K : Vec Ideal S2048x64 .bf16) (t : Fin 2048) (jj : ℕ) (c : Fin 512)
    (hs : 512 * jj + c.val ≤ t.val) :
    Sf Q K t jj c = (∑ h : Fin 64, rows K t h * rows Q ⟨512 * jj + c.val, lt_of_le_of_lt hs t.isLt⟩ h) * c8 :=
  dif_pos hs

theorem Sf_gt (Q K : Vec Ideal S2048x64 .bf16) (t : Fin 2048) (jj : ℕ) (c : Fin 512)
    (hs : ¬ 512 * jj + c.val ≤ t.val) : Sf Q K t jj c = ⊥ :=
  dif_neg hs

/-! ### The online law on row `t` -/

/-- Row `t` lying in row tile `j`, the recurrence's quotient after the column tiles `0 … j` is attention's entry. -/
theorem run_eq_attn (Q K V : Vec Ideal S2048x64 .bf16)
    (hQ : ∀ i, ∃ x : ℝ, Q i = (x : EReal)) (hK : ∀ i, ∃ x : ℝ, K i = (x : EReal)) (hV : ∀ i, ∃ x : ℝ, V i = (x : EReal))
    (t : Fin 2048) (h : Fin 64) (j : ℕ) (hlo : 512 * j ≤ t.val) (hhi : t.val < 512 * j + 512) :
    (run (Sf Q K t) (vf V h) (j + 1)).out = attn (rows Q) (rows K) (rows V) t h := by
  have ht := t.isLt
  rw [online_eq 4 512 (j + 1) (by norm_num) (Nat.le_add_left 1 j) (by omega) (Sf Q K t) (vf V h) ?_ ?_ ?_ ?_]
  · unfold attn
    show refOut (n := 2048) _ _ = _
    congr 1
    · funext k
      show scoreN Q K t (512 * (k.val / 512) + k.val % 512) = _
      rw [Nat.div_add_mod]
      exact scoreN_eq Q K t k
    · funext k
      show valN V h (512 * (k.val / 512) + k.val % 512) = _
      rw [Nat.div_add_mod]
      exact valN_eq V h k
  · intro jj c
    by_cases hs : 512 * jj + c.val ≤ t.val
    · rw [Sf_le Q K t jj c hs]
      exact Or.inr (dot_real Q K hQ hK _ _)
    · rw [Sf_gt Q K t jj c hs]
      exact Or.inl rfl
  · intro jj c
    show ∃ x : ℝ, valN V h (512 * jj + c.val) = (x : EReal)
    unfold valN
    by_cases hs : 512 * jj + c.val < 2048
    · rw [dif_pos hs]
      exact hV _
    · rw [dif_neg hs]
      exact ⟨0, EReal.coe_zero.symm⟩
  · refine ⟨⟨0, by norm_num⟩, ?_⟩
    rw [Sf_le Q K t 0 ⟨0, by norm_num⟩ (Nat.zero_le _)]
    exact dot_real Q K hQ hK _ _
  · intro jj hjj c
    exact Sf_gt Q K t jj c (by have := c.isLt; omega)

/-! ### The tiles' operands -/

/-- `a` is the block of 512 rows of `A` from row `512 jj` on. -/
def IsTile (A : Vec Ideal S2048x64 .bf16) (a : Vec Ideal S512x64 .bf16) (jj : ℕ) : Prop :=
  ∀ (r : Fin 512) (h : Fin 64) (hb : 512 * jj + r.val < 2048), a (ix2 r h) = A (ix2 ⟨512 * jj + r.val, hb⟩ h)

theorem isTile0 (A : Vec Ideal S2048x64 .bf16) : IsTile A (sub0 A) 0 := by
  intro r h hb
  rw [sub0_apply]
  exact congrArg (fun i : Fin 2048 => A (ix2 i h)) (Fin.ext (by show r.val = 512 * 0 + r.val; omega))
theorem isTile1 (A : Vec Ideal S2048x64 .bf16) : IsTile A (sub1 A) 1 := by
  intro r h hb
  rw [sub1_apply]
theorem isTile2 (A : Vec Ideal S2048x64 .bf16) : IsTile A (sub2 A) 2 := by
  intro r h hb
  rw [sub2_apply]
theorem isTile3 (A : Vec Ideal S2048x64 .bf16) : IsTile A (sub3 A) 3 := by
  intro r h hb
  rw [sub3_apply]

/-- An unmasked score tile (column tile `jj` before row tile `j`), read along row `r`: row `512 j + r`'s scores on tile
    `jj`. -/
theorem unmasked_eq (Q K : Vec Ideal S2048x64 .bf16)
    (hQ : ∀ i, ∃ x : ℝ, Q i = (x : EReal)) (hK : ∀ i, ∃ x : ℝ, K i = (x : EReal))
    (kt qt : Vec Ideal S512x64 .bf16) (j jj : ℕ) (hk : IsTile K kt j) (hq : IsTile Q qt jj) (hjj : jj < j)
    (r : Fin 512) (t : Fin 2048) (ht : t.val = 512 * j + r.val) :
    (fun c : Fin 512 => scoreT (F := Ideal) kt qt (ix2 r c)) = Sf Q K t jj := by
  have hb : 512 * j + r.val < 2048 := ht ▸ t.isLt
  obtain rfl : t = ⟨512 * j + r.val, hb⟩ := Fin.ext ht
  funext c
  have hc := c.isLt
  have hs : 512 * jj + c.val ≤ 512 * j + r.val := by omega
  rw [Sf_le Q K _ jj c hs]
  exact score_eq Q K hQ hK kt qt _ _ r c (fun h => hk r h hb) (fun h => hq c h _)

/-- The masked diagonal score tile, read along row `r`: row `512 j + r`'s scores on tile `j`. -/
theorem masked_eq (Q K : Vec Ideal S2048x64 .bf16)
    (hQ : ∀ i, ∃ x : ℝ, Q i = (x : EReal)) (hK : ∀ i, ∃ x : ℝ, K i = (x : EReal))
    (kt qt : Vec Ideal S512x64 .bf16) (j off : ℕ) (hoff : off = 512 * j) (hk : IsTile K kt j) (hq : IsTile Q qt j)
    (r : Fin 512) (t : Fin 2048) (ht : t.val = 512 * j + r.val) :
    (fun c : Fin 512 => maskT (F := Ideal) (BitVec.ofNat 32 off) (scoreT kt qt) (ix2 r c)) = Sf Q K t j := by
  have hb : 512 * j + r.val < 2048 := ht ▸ t.isLt
  obtain rfl : t = ⟨512 * j + r.val, hb⟩ := Fin.ext ht
  funext c
  have hc := c.isLt
  have hr := r.isLt
  rw [maskT_apply off (by omega) (scoreT kt qt) r c]
  by_cases hcr : c.val ≤ r.val
  · have hs : 512 * j + c.val ≤ 512 * j + r.val := by omega
    rw [if_pos hcr, Sf_le Q K _ j c hs]
    exact score_eq Q K hQ hK kt qt _ _ r c (fun h => hk r h hb) (fun h => hq c h _)
  · have hs : ¬ 512 * j + c.val ≤ 512 * j + r.val := by omega
    rw [if_neg hcr, Sf_gt Q K _ j c hs]

/-- A value tile read along column `h`: the values on tile `jj`. -/
theorem val_eq (V : Vec Ideal S2048x64 .bf16) (vt : Vec Ideal S512x64 .bf16) (jj : ℕ) (hv : IsTile V vt jj) (hjj : jj < 4)
    (h : Fin 64) : (fun c : Fin 512 => vt (ix2 c h)) = vf V h jj := by
  funext c
  have hc := c.isLt
  have hb : 512 * jj + c.val < 2048 := by omega
  show _ = valN V h (512 * jj + c.val)
  unfold valN
  rw [dif_pos hb]
  exact hv c h hb

/-! ### The four row tiles -/

theorem tile0_eq (Q K V : Vec Ideal S2048x64 .bf16)
    (hQ : ∀ i, ∃ x : ℝ, Q i = (x : EReal)) (hK : ∀ i, ∃ x : ℝ, K i = (x : EReal)) (hV : ∀ i, ∃ x : ℝ, V i = (x : EReal))
    (r : Fin 512) (h : Fin 64) :
    tile0 (F := Ideal) (sub0 K) (sub0 Q) (sub0 V) (ix3 (0 : Fin 1) r h)
      = attn (rows Q) (rows K) (rows V) ⟨r.val, by omega⟩ h := by
  have hr := r.isLt
  have ht : (⟨r.val, by omega⟩ : Fin 2048).val = 512 * 0 + r.val := by show r.val = _; omega
  rw [tile0, out_apply, accOf_step, accOf_init,
    masked_eq Q K hQ hK (sub0 K) (sub0 Q) 0 0 rfl (isTile0 K) (isTile0 Q) r _ ht,
    val_eq V (sub0 V) 0 (isTile0 V) (by norm_num) h]
  exact run_eq_attn Q K V hQ hK hV _ h 0 (by show _ ≤ r.val; omega) (by show r.val < _; omega)

theorem tile1_eq (Q K V : Vec Ideal S2048x64 .bf16)
    (hQ : ∀ i, ∃ x : ℝ, Q i = (x : EReal)) (hK : ∀ i, ∃ x : ℝ, K i = (x : EReal)) (hV : ∀ i, ∃ x : ℝ, V i = (x : EReal))
    (r : Fin 512) (h : Fin 64) :
    tile1 (F := Ideal) (sub1 K) (sub0 Q) (sub0 V) (sub1 Q) (sub1 V) (ix3 (0 : Fin 1) r h)
      = attn (rows Q) (rows K) (rows V) ⟨512 + r.val, by omega⟩ h := by
  have hr := r.isLt
  have ht : (⟨512 + r.val, by omega⟩ : Fin 2048).val = 512 * 1 + r.val := by show 512 + r.val = _; omega
  rw [tile1, out_apply, accOf_step, accOf_step, accOf_init,
    unmasked_eq Q K hQ hK (sub1 K) (sub0 Q) 1 0 (isTile1 K) (isTile0 Q) (by norm_num) r _ ht,
    masked_eq Q K hQ hK (sub1 K) (sub1 Q) 1 512 rfl (isTile1 K) (isTile1 Q) r _ ht,
    val_eq V (sub0 V) 0 (isTile0 V) (by norm_num) h, val_eq V (sub1 V) 1 (isTile1 V) (by norm_num) h]
  exact run_eq_attn Q K V hQ hK hV _ h 1 (by show _ ≤ 512 + r.val; omega) (by show 512 + r.val < _; omega)

theorem tile2_eq (Q K V : Vec Ideal S2048x64 .bf16)
    (hQ : ∀ i, ∃ x : ℝ, Q i = (x : EReal)) (hK : ∀ i, ∃ x : ℝ, K i = (x : EReal)) (hV : ∀ i, ∃ x : ℝ, V i = (x : EReal))
    (r : Fin 512) (h : Fin 64) :
    tile2 (F := Ideal) (sub2 K) (sub0 Q) (sub0 V) (sub1 Q) (sub1 V) (sub2 Q) (sub2 V) (ix3 (0 : Fin 1) r h)
      = attn (rows Q) (rows K) (rows V) ⟨1024 + r.val, by omega⟩ h := by
  have hr := r.isLt
  have ht : (⟨1024 + r.val, by omega⟩ : Fin 2048).val = 512 * 2 + r.val := by show 1024 + r.val = _; omega
  rw [tile2, out_apply, accOf_step, accOf_step, accOf_step, accOf_init,
    unmasked_eq Q K hQ hK (sub2 K) (sub0 Q) 2 0 (isTile2 K) (isTile0 Q) (by norm_num) r _ ht,
    unmasked_eq Q K hQ hK (sub2 K) (sub1 Q) 2 1 (isTile2 K) (isTile1 Q) (by norm_num) r _ ht,
    masked_eq Q K hQ hK (sub2 K) (sub2 Q) 2 1024 rfl (isTile2 K) (isTile2 Q) r _ ht,
    val_eq V (sub0 V) 0 (isTile0 V) (by norm_num) h, val_eq V (sub1 V) 1 (isTile1 V) (by norm_num) h,
    val_eq V (sub2 V) 2 (isTile2 V) (by norm_num) h]
  exact run_eq_attn Q K V hQ hK hV _ h 2 (by show _ ≤ 1024 + r.val; omega) (by show 1024 + r.val < _; omega)

theorem tile3_eq (Q K V : Vec Ideal S2048x64 .bf16)
    (hQ : ∀ i, ∃ x : ℝ, Q i = (x : EReal)) (hK : ∀ i, ∃ x : ℝ, K i = (x : EReal)) (hV : ∀ i, ∃ x : ℝ, V i = (x : EReal))
    (r : Fin 512) (h : Fin 64) :
    tile3 (F := Ideal) (sub3 K) (sub0 Q) (sub0 V) (sub1 Q) (sub1 V) (sub2 Q) (sub2 V) (sub3 Q) (sub3 V) (ix3 (0 : Fin 1) r h)
      = attn (rows Q) (rows K) (rows V) ⟨1536 + r.val, by omega⟩ h := by
  have hr := r.isLt
  have ht : (⟨1536 + r.val, by omega⟩ : Fin 2048).val = 512 * 3 + r.val := by show 1536 + r.val = _; omega
  rw [tile3, out_apply, accOf_step, accOf_step, accOf_step, accOf_step, accOf_init,
    unmasked_eq Q K hQ hK (sub3 K) (sub0 Q) 3 0 (isTile3 K) (isTile0 Q) (by norm_num) r _ ht,
    unmasked_eq Q K hQ hK (sub3 K) (sub1 Q) 3 1 (isTile3 K) (isTile1 Q) (by norm_num) r _ ht,
    unmasked_eq Q K hQ hK (sub3 K) (sub2 Q) 3 2 (isTile3 K) (isTile2 Q) (by norm_num) r _ ht,
    masked_eq Q K hQ hK (sub3 K) (sub3 Q) 3 1536 rfl (isTile3 K) (isTile3 Q) r _ ht,
    val_eq V (sub0 V) 0 (isTile0 V) (by norm_num) h, val_eq V (sub1 V) 1 (isTile1 V) (by norm_num) h,
    val_eq V (sub2 V) 2 (isTile2 V) (by norm_num) h, val_eq V (sub3 V) 3 (isTile3 V) (by norm_num) h]
  exact run_eq_attn Q K V hQ hK hV _ h 3 (by show _ ≤ 1536 + r.val; omega) (by show 1536 + r.val < _; omega)

end Cert.TileIdeal

end
-- ==== Proof.ProjIdeal.lean ====
/-
  The three projection scratch arrays read at the extended reals: entry (t, h) of each is the inner product of the input
  block's row t with column h, 64 + h or 128 + h of the fused weight block; and the fused weight block, the three weight
  arrays concatenated along their second axis, read at those columns is the first, second, third weight array at column h.
-/
import proofs.«411072_j44074954392146_3_alg».proof.Proof.Tile
import Idealize.ShloMosaic.Lib.ValueIdx
import Idealize.ShloMosaic.Lib.ValueLayout
import Idealize.ShloMosaic.Lib.Pipeline.Value
import Idealize.ShloMosaic.PureOps.Ideal.Laws

noncomputable section

namespace Cert.ProjIdeal

open Cert.KernelIdeal Cert.KernelIdeal.Tile
open Idealize.ShloMosaic Idealize.ShloMosaic.ValueIdx

variable [Cert.KernelIdeal.Facts]

/-! ## The fused product at an index -/

/-- The left operand's index of the product's contraction: its row is the output row. -/
theorem lhs_proj_0 (i : S2048x192.Idx) (q : dot_S2048x1024_S1024x192_S2048x192_1_0_0_1_n_n.contr.Idx) :
    (dot_S2048x1024_S1024x192_S2048x192_1_0_0_1_n_n.lhsIdx i q 0).val = (i 0).val := by
  unfold DotDims.lhsIdx
  rw [dif_neg (show ¬(0 : Fin S2048x1024.rank) ∈ dot_S2048x1024_S1024x192_S2048x192_1_0_0_1_n_n.lhsBatch from List.not_mem_nil), dif_pos (show (0 : Fin S2048x1024.rank) ∈ dot_S2048x1024_S1024x192_S2048x192_1_0_0_1_n_n.lhsNonContracting from List.mem_singleton.2 rfl)]
  rfl
/-- Its column is the contraction's one coordinate. -/
theorem lhs_proj_1 (i : S2048x192.Idx) (q : dot_S2048x1024_S1024x192_S2048x192_1_0_0_1_n_n.contr.Idx) :
    (dot_S2048x1024_S1024x192_S2048x192_1_0_0_1_n_n.lhsIdx i q 1).val = (q ⟨0, by rw [DotDims.rank_contr]; exact Nat.one_pos⟩).val :=
  dot_S2048x1024_S1024x192_S2048x192_1_0_0_1_n_n.lhsIdx_val_of_single rfl i q
/-- The right operand's row is the contraction's one coordinate. -/
theorem rhs_proj_0 (i : S2048x192.Idx) (q : dot_S2048x1024_S1024x192_S2048x192_1_0_0_1_n_n.contr.Idx) :
    (dot_S2048x1024_S1024x192_S2048x192_1_0_0_1_n_n.rhsIdx i q 0).val = (q ⟨0, by rw [DotDims.rank_contr]; exact Nat.one_pos⟩).val :=
  dot_S2048x1024_S1024x192_S2048x192_1_0_0_1_n_n.rhsIdx_val_of_single rfl i q
/-- Its column is the output column. -/
theorem rhs_proj_1 (i : S2048x192.Idx) (q : dot_S2048x1024_S1024x192_S2048x192_1_0_0_1_n_n.contr.Idx) :
    (dot_S2048x1024_S1024x192_S2048x192_1_0_0_1_n_n.rhsIdx i q 1).val = (i 1).val := by
  unfold DotDims.rhsIdx
  rw [dif_neg (show ¬(1 : Fin S1024x192.rank) ∈ dot_S2048x1024_S1024x192_S2048x192_1_0_0_1_n_n.rhsBatch from List.not_mem_nil), dif_pos (show (1 : Fin S1024x192.rank) ∈ dot_S2048x1024_S1024x192_S2048x192_1_0_0_1_n_n.rhsNonContracting from List.mem_singleton.2 rfl)]
  rfl

/-- Entry (t, c) of the fused product: row t of the input block against column c of the fused weight block. -/
theorem projAll_apply (x0 : Vec Ideal S1x2048x1024 .f32) (x1 : Vec Ideal S1024x192 .f32) (t : Fin 2048) (c : Fin 192) :
    projAll (F := Ideal) x0 x1 (ix2 t c) = ∑ i : Fin 1024, x0 (ix3 (0 : Fin 1) t i) * x1 (ix2 i c) := by
  unfold projAll
  simp only [matmul]
  rw [Ideal.matmul_constant_zero_apply, ← Equiv.sum_comp (contrEquiv1 dot_S2048x1024_S1024x192_S2048x192_1_0_0_1_n_n 1024 rfl rfl).symm]
  refine Finset.sum_congr rfl fun k _ => ?_
  have hk := contrEquiv1_symm_val dot_S2048x1024_S1024x192_S2048x192_1_0_0_1_n_n 1024 rfl rfl k
  have el : dot_S2048x1024_S1024x192_S2048x192_1_0_0_1_n_n.lhsIdx (ix2 t c) ((contrEquiv1 dot_S2048x1024_S1024x192_S2048x192_1_0_0_1_n_n 1024 rfl rfl).symm k) = ix2 t k := funext fun a => Fin.ext (by
    match a with
    | ⟨0, _⟩ => exact lhs_proj_0 _ _
    | ⟨1, _⟩ => exact (lhs_proj_1 _ _).trans hk)
  have er : dot_S2048x1024_S1024x192_S2048x192_1_0_0_1_n_n.rhsIdx (ix2 t c) ((contrEquiv1 dot_S2048x1024_S1024x192_S2048x192_1_0_0_1_n_n 1024 rfl rfl).symm k) = ix2 k c := funext fun a => Fin.ext (by
    match a with
    | ⟨0, _⟩ => exact (rhs_proj_0 _ _).trans hk
    | ⟨1, _⟩ => exact rhs_proj_1 _ _)
  rw [el, er, truncf_apply, truncf_apply, shapeCast_1ab_ab_apply, shapeCast_self]

theorem projQ_apply (x0 : Vec Ideal S1x2048x1024 .f32) (x1 : Vec Ideal S1024x192 .f32) (t : Fin 2048) (h : Fin 64) :
    projQ (F := Ideal) x0 x1 (ix2 t h)
      = ∑ i : Fin 1024, x0 (ix3 (0 : Fin 1) t i) * x1 (ix2 i (⟨h.val, by omega⟩ : Fin 192)) := by
  unfold projQ
  rw [shapeCast_self, truncf_apply]
  refine (slice2_axis1_apply 0 _ _ t h (⟨h.val, by omega⟩ : Fin 192) (Nat.zero_add _).symm).trans ?_
  exact projAll_apply x0 x1 t _

theorem projK_apply (x0 : Vec Ideal S1x2048x1024 .f32) (x1 : Vec Ideal S1024x192 .f32) (t : Fin 2048) (h : Fin 64) :
    projK (F := Ideal) x0 x1 (ix2 t h)
      = ∑ i : Fin 1024, x0 (ix3 (0 : Fin 1) t i) * x1 (ix2 i (⟨64 + h.val, by omega⟩ : Fin 192)) := by
  unfold projK
  rw [shapeCast_self, truncf_apply]
  refine (slice2_axis1_apply 64 _ _ t h (⟨64 + h.val, by omega⟩ : Fin 192) rfl).trans ?_
  exact projAll_apply x0 x1 t _

theorem projV_apply (x0 : Vec Ideal S1x2048x1024 .f32) (x1 : Vec Ideal S1024x192 .f32) (t : Fin 2048) (h : Fin 64) :
    projV (F := Ideal) x0 x1 (ix2 t h)
      = ∑ i : Fin 1024, x0 (ix3 (0 : Fin 1) t i) * x1 (ix2 i (⟨128 + h.val, by omega⟩ : Fin 192)) := by
  unfold projV
  rw [shapeCast_self, truncf_apply]
  refine (slice2_axis1_apply 128 _ _ t h (⟨128 + h.val, by omega⟩ : Fin 192) rfl).trans ?_
  exact projAll_apply x0 x1 t _

/-- The concatenation of three [1024, 64] arrays along axis 1, read at a column of each third. -/
theorem concat_apply (w1 w2 w3 : Vec Ideal S1024x64 .f32) (i : Fin 1024) (h : Fin 64) :
    (concatenate S1024x192 1 [⟨S1024x64, w1⟩, ⟨S1024x64, w2⟩, ⟨S1024x64, w3⟩]
        Facts₀.concatenates_S1024x64_S1024x64_S1024x64_S1024x192_d1 : Vec Ideal S1024x192 .f32) (ix2 i (⟨h.val, by omega⟩ : Fin 192)) = w1 (ix2 i h)
    ∧ (concatenate S1024x192 1 [⟨S1024x64, w1⟩, ⟨S1024x64, w2⟩, ⟨S1024x64, w3⟩]
        Facts₀.concatenates_S1024x64_S1024x64_S1024x64_S1024x192_d1 : Vec Ideal S1024x192 .f32) (ix2 i (⟨64 + h.val, by omega⟩ : Fin 192)) = w2 (ix2 i h)
    ∧ (concatenate S1024x192 1 [⟨S1024x64, w1⟩, ⟨S1024x64, w2⟩, ⟨S1024x64, w3⟩]
        Facts₀.concatenates_S1024x64_S1024x64_S1024x64_S1024x192_d1 : Vec Ideal S1024x192 .f32) (ix2 i (⟨128 + h.val, by omega⟩ : Fin 192)) = w3 (ix2 i h) := by
  have hoff : ∀ b : Fin S1024x64.rank, b.cast (rfl : S1024x64.rank = S1024x192.rank) ≠ (1 : Fin S1024x192.rank) →
      ∀ c : Fin 192, ((ix2 i h : S1024x64.Idx) b).val = ((ix2 i c : S1024x192.Idx) (b.cast rfl)).val := fun b hb c => by
    match b with
    | ⟨0, _⟩ => rfl
    | ⟨1, _⟩ => exact absurd rfl hb
  refine ⟨?_, ?_, ?_⟩
  · exact concatenate_apply_piece (t := S1024x192) 1 [⟨S1024x64, w1⟩, ⟨S1024x64, w2⟩, ⟨S1024x64, w3⟩] Facts₀.concatenates_S1024x64_S1024x64_S1024x64_S1024x192_d1
      (ix2 i (⟨h.val, by omega⟩ : Fin 192)) 0 (by simp) S1024x64 w1 rfl rfl 0 rfl (ix2 i h) (fun b hb => hoff b hb _) (Nat.zero_add _)
  · exact concatenate_apply_piece (t := S1024x192) 1 [⟨S1024x64, w1⟩, ⟨S1024x64, w2⟩, ⟨S1024x64, w3⟩] Facts₀.concatenates_S1024x64_S1024x64_S1024x64_S1024x192_d1
      (ix2 i (⟨64 + h.val, by omega⟩ : Fin 192)) 1 (by simp) S1024x64 w2 rfl rfl 64 rfl (ix2 i h) (fun b hb => hoff b hb _) rfl
  · exact concatenate_apply_piece (t := S1024x192) 1 [⟨S1024x64, w1⟩, ⟨S1024x64, w2⟩, ⟨S1024x64, w3⟩] Facts₀.concatenates_S1024x64_S1024x64_S1024x64_S1024x192_d1
      (ix2 i (⟨128 + h.val, by omega⟩ : Fin 192)) 2 (by simp) S1024x64 w3 rfl rfl 128 rfl (ix2 i h) (fun b hb => hoff b hb _) rfl

end Cert.ProjIdeal

end
-- ==== Proof.FinalI.lean ====
/-
  The result array of `KernelIdeal` at the extended reals, in closed form. At grid point t the input window's block is
  batch t of the input and the weight window's block is the whole fused weight array, the three weight arrays side by
  side; so the three scratch arrays hold batch t's projections, the body's four stored row tiles are attention's rows
  of batch t (the tile recurrence's law), the block written back at t is block t of the attention function `G` of the
  four argument arrays, and the eight blocks cover the result array: it ends holding `G`.
-/
import proofs.«411072_j44074954392146_3_alg».proof.Proof.ValueI
import proofs.«411072_j44074954392146_3_alg».proof.Proof.TileIdeal
import proofs.«411072_j44074954392146_3_alg».proof.Proof.ProjIdeal
import Idealize.ShloMosaic.Lib.Ring

set_option maxRecDepth 16384

noncomputable section

namespace Cert.KernelIdeal.Final

open Cert.KernelIdeal Cert.KernelIdeal.Gen Cert.KernelIdeal.Kit Cert.KernelIdeal.Tile
open Cert.Attn Cert.TileIdeal Cert.ProjIdeal
open Idealize.ShloMosaic Idealize.ShloMosaic.TcCoe Idealize.ShloMosaic.ValueIdx Idealize.ShloMosaic.Tactic Idealize.SL.Sem
open Idealize.ShloMosaic.Pipeline (Dat)

variable (m : (ℓ : Loc nD τ sig) → Buf (Elt Ideal) ℓ) (ρ : Dev nD → PrngReg)

/-- The four argument arrays on core `c`, as launched. -/
abbrev ax (c : Dev nD) : Vec Ideal S8x2048x1024 .f32 := m ((c : Thread nD τ).loc main_arg0)
abbrev aq (c : Dev nD) : Vec Ideal S1024x64 .f32 := m ((c : Thread nD τ).loc main_arg1)
abbrev ak (c : Dev nD) : Vec Ideal S1024x64 .f32 := m ((c : Thread nD τ).loc main_arg2)
abbrev av (c : Dev nD) : Vec Ideal S1024x64 .f32 := m ((c : Thread nD τ).loc main_arg3)

/-- Every entry of the four argument arrays on core `c` is real. -/
def RealArgs (c : Dev nD) : Prop :=
  (∀ i, ∃ x : ℝ, ax m c i = (x : EReal)) ∧ (∀ i, ∃ x : ℝ, aq m c i = (x : EReal))
    ∧ (∀ i, ∃ x : ℝ, ak m c i = (x : EReal)) ∧ (∀ i, ∃ x : ℝ, av m c i = (x : EReal))

/-- The attention function of core `c`'s argument arrays. -/
def Gc (c : Dev nD) : Vec Ideal S8x2048x64 .f32 := G (ax m c) (aq m c) (ak m c) (av m c)

/-- The printed index maps over the grid: the input and output windows move along the batch axis, the weight window stays. -/
theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 3) = t.val ∧ win0_2.index t (1 : Fin 3) = 0 ∧ win0_2.index t (2 : Fin 3) = 0 :=
  (by decide +kernel : ∀ t : Fin grid0.N, _)

theorem tlt (t : Fin cfg0.N) : t.val < 8 := lt_of_lt_of_eq t.isLt N_0

/-- The input window's block at point `t` is batch `t` of the input. -/
theorem iblk0_apply (c : Dev nD) (t : Fin cfg0.N) (s : Fin 2048) (i : Fin 1024) :
    (iblk m c 0 t : Vec Ideal S1x2048x1024 .f32) (ix3 (0 : Fin 1) s i) = ax m c (ix3 (⟨t.val, tlt t⟩ : Fin 8) s i) := by
  obtain ⟨e0, e1, e2⟩ := idx0 t
  unfold iblk
  rw [View.read_apply]
  show V m c main_arg0 _ = m ((c : Thread nD τ).loc main_arg0) _
  rw [V_main_arg0]
  congr 1
  funext a
  apply Fin.ext
  match a with
  | ⟨0, _⟩ => show win0_0.index t (0 : Fin 3) * 1 + 1 * 0 = t.val; omega
  | ⟨1, _⟩ => show win0_0.index t (1 : Fin 3) * 2048 + 1 * s.val = s.val; omega
  | ⟨2, _⟩ => show win0_0.index t (2 : Fin 3) * 1024 + 1 * i.val = i.val; omega

/-- The weight window's block at every point is the whole fused weight array. -/
theorem iblk1_apply (c : Dev nD) (t : Fin cfg0.N) (i : Fin 1024) (k : Fin 192) :
    (iblk m c 1 t : Vec Ideal S1024x192 .f32) (ix2 i k) = (V m c main_v0 : Vec Ideal S1024x192 .f32) (ix2 i k) := by
  obtain ⟨e0, e1⟩ := idx1 t
  unfold iblk
  rw [View.read_apply]
  show V m c main_v0 _ = V m c main_v0 _
  congr 1
  funext a
  apply Fin.ext
  match a with
  | ⟨0, _⟩ => show win0_1.index t (0 : Fin 2) * 1024 + 1 * i.val = i.val; omega
  | ⟨1, _⟩ => show win0_1.index t (1 : Fin 2) * 192 + 1 * k.val = k.val; omega

/-- The three scratch arrays at point `t` are batch `t`'s projections by the three weight arrays. -/
theorem rowsQ (c : Dev nD) (t : Fin cfg0.N) :
    rows (projQ (F := Ideal) (iblk m c 0 t) (iblk m c 1 t)) = fun s h => proj (ax m c) (aq m c) ⟨t.val, tlt t⟩ s h := by
  funext s h
  unfold rows
  rw [projQ_apply]
  unfold proj
  refine Finset.sum_congr rfl fun i _ => ?_
  rw [iblk0_apply, iblk1_apply, V_main_v0]
  exact congrArg (_ * ·) (concat_apply _ _ _ i h).1
theorem rowsK (c : Dev nD) (t : Fin cfg0.N) :
    rows (projK (F := Ideal) (iblk m c 0 t) (iblk m c 1 t)) = fun s h => proj (ax m c) (ak m c) ⟨t.val, tlt t⟩ s h := by
  funext s h
  unfold rows
  rw [projK_apply]
  unfold proj
  refine Finset.sum_congr rfl fun i _ => ?_
  rw [iblk0_apply, iblk1_apply, V_main_v0]
  exact congrArg (_ * ·) (concat_apply _ _ _ i h).2.1
theorem rowsV (c : Dev nD) (t : Fin cfg0.N) :
    rows (projV (F := Ideal) (iblk m c 0 t) (iblk m c 1 t)) = fun s h => proj (ax m c) (av m c) ⟨t.val, tlt t⟩ s h := by
  funext s h
  unfold rows
  rw [projV_apply]
  unfold proj
  refine Finset.sum_congr rfl fun i _ => ?_
  rw [iblk0_apply, iblk1_apply, V_main_v0]
  exact congrArg (_ * ·) (concat_apply _ _ _ i h).2.2

/-- A scratch array whose rows are real projections is real entry by entry. -/
theorem real_of_rows (A : Vec Ideal S2048x64 .bf16) (f : Fin 2048 → Fin 64 → EReal) (hA : rows A = f)
    (hf : ∀ s h, ∃ x : ℝ, f s h = (x : EReal)) : ∀ i, ∃ x : ℝ, A i = (x : EReal) := by
  intro i
  obtain ⟨s, h, rfl⟩ : ∃ (s : Fin 2048) (h : Fin 64), i = ix2 s h := ⟨i 0, i 1, eq_ix2 i⟩
  obtain ⟨x, hx⟩ := hf s h
  exact ⟨x, by rw [← hx, ← hA]; rfl⟩

/-- The stored pieces tile the output block. -/
theorem cover_pieces {F : FTy → Type} [FloatOps F] [Named F] (Q K V : Vec F S2048x64 .bf16) (y : S1x2048x64.Idx) :
    ∃ p ∈ piecesQKV Q K V, y ∈ p.1.set :=
  View.cover_of_tiledL (piecesQKV Q K V) S1x512x64.size (by unfold piecesQKV; sl_kernel_rfl) y

/-- The function the four stored pieces are tiles of: attention's rows over the three scratch arrays. -/
def Gy (Q K V : FVec Ideal S2048x64 .bf16) : S1x2048x64.Idx → Elt Ideal .f32 :=
  fun z => attn (rows Q) (rows K) (rows V) (⟨(z 1).val, (z 1).isLt⟩ : Fin 2048) (⟨(z 2).val, (z 2).isLt⟩ : Fin 64)

/-- Each stored piece is its rectangle's tile of that function (the tile recurrence's law, row tile by row tile). -/
theorem pieces_tiles (Q K V : FVec Ideal S2048x64 .bf16)
    (hQ : ∀ i, ∃ x : ℝ, Q i = (x : EReal)) (hK : ∀ i, ∃ x : ℝ, K i = (x : EReal)) (hV : ∀ i, ∃ x : ℝ, V i = (x : EReal)) :
    ∀ p ∈ piecesQKV (F := Ideal) Q K V, ∀ x : p.1.shape.Idx, p.2 x = Gy Q K V (p.1.emb x) := by
  intro p hp x
  simp only [piecesQKV, List.mem_cons, List.mem_nil_iff, or_false] at hp
  rcases hp with rfl | rfl | rfl | rfl
  · obtain ⟨a, r, h, rfl⟩ : ∃ (a : Fin 1) (r : Fin 512) (h : Fin 64), x = ix3 a r h := ⟨x 0, x 1, x 2, eq_ix3 x⟩
    obtain rfl : a = 0 := Subsingleton.elim _ _
    refine (tile3_eq Q K V hQ hK hV r h).trans ?_
    unfold Gy
    congr 1 <;> exact Fin.ext (by simp [Rect.emb_apply, Rect.off_unit, Rect.stride_unit])
  · obtain ⟨a, r, h, rfl⟩ : ∃ (a : Fin 1) (r : Fin 512) (h : Fin 64), x = ix3 a r h := ⟨x 0, x 1, x 2, eq_ix3 x⟩
    obtain rfl : a = 0 := Subsingleton.elim _ _
    refine (tile2_eq Q K V hQ hK hV r h).trans ?_
    unfold Gy
    congr 1 <;> exact Fin.ext (by simp [Rect.emb_apply, Rect.off_unit, Rect.stride_unit])
  · obtain ⟨a, r, h, rfl⟩ : ∃ (a : Fin 1) (r : Fin 512) (h : Fin 64), x = ix3 a r h := ⟨x 0, x 1, x 2, eq_ix3 x⟩
    obtain rfl : a = 0 := Subsingleton.elim _ _
    refine (tile1_eq Q K V hQ hK hV r h).trans ?_
    unfold Gy
    congr 1 <;> exact Fin.ext (by simp [Rect.emb_apply, Rect.off_unit, Rect.stride_unit])
  · obtain ⟨a, r, h, rfl⟩ : ∃ (a : Fin 1) (r : Fin 512) (h : Fin 64), x = ix3 a r h := ⟨x 0, x 1, x 2, eq_ix3 x⟩
    obtain rfl : a = 0 := Subsingleton.elim _ _
    refine (tile0_eq Q K V hQ hK hV r h).trans ?_
    unfold Gy
    congr 1 <;> exact Fin.ext (by simp [Rect.emb_apply, Rect.off_unit, Rect.stride_unit])

/-- So the block the pieces leave is that function, entry by entry. -/
theorem canon_pieces (Q K V : FVec Ideal S2048x64 .bf16)
    (hQ : ∀ i, ∃ x : ℝ, Q i = (x : EReal)) (hK : ∀ i, ∃ x : ℝ, K i = (x : EReal)) (hV : ∀ i, ∃ x : ℝ, V i = (x : EReal))
    (y : S1x2048x64.Idx) : View.canon (piecesQKV (F := Ideal) Q K V) y = Gy Q K V y :=
  View.canon_apply_of_pieces (Val := Elt Ideal) (Gy Q K V) _ (pieces_tiles Q K V hQ hK hV) y (cover_pieces (F := Ideal) Q K V y)

/-- THE BLOCK the body leaves at point `t`, entry by entry: batch `t` of the attention function. -/
theorem outF_apply (c : Dev nD) (hr : RealArgs m c) (t : Fin cfg0.N) (y : S1x2048x64.Idx) :
    outF (F := Ideal) (iblk m c 0 t) (iblk m c 1 t) y = Gc m c (ix3 (⟨t.val, tlt t⟩ : Fin 8) (y 1) (y 2)) := by
  obtain ⟨hx, hq, hk, hv⟩ := hr
  have eQ := rowsQ m c t
  have eK := rowsK m c t
  have eV := rowsV m c t
  have hQ := real_of_rows _ _ eQ (fun s h => proj_real _ _ hx hq _ s h)
  have hK := real_of_rows _ _ eK (fun s h => proj_real _ _ hx hk _ s h)
  have hV := real_of_rows _ _ eV (fun s h => proj_real _ _ hx hv _ s h)
  unfold outF
  generalize projQ (F := Ideal) (iblk m c 0 t) (iblk m c 1 t) = Q at eQ hQ ⊢
  generalize projK (F := Ideal) (iblk m c 0 t) (iblk m c 1 t) = K at eK hK ⊢
  generalize projV (F := Ideal) (iblk m c 0 t) (iblk m c 1 t) = V' at eV hV ⊢
  refine (canon_pieces Q K V' hQ hK hV y).trans ?_
  unfold Gy
  rw [eQ, eK, eV]
  rfl

/-- WHAT POINT `t` WRITES BACK is block `t` of the attention function of the argument arrays. -/
theorem flushed_eq (c : Dev nD) (hr : RealArgs m c) (t : Fin cfg0.N) :
    (dats m 0 c).flushed 2 t = ((cfg0.win 2).blk t).view.read (Elt Ideal) (Gc m c) := by
  show (cfg0.win 2).cut (grid0.coords t) ((dats m 0 c).after 2 t) = _
  rw [after0_2, out2_eq]
  obtain ⟨e0, e1, e2⟩ := idx2 t
  funext j
  rw [View.read_apply]
  refine (outF_apply m c hr t j).trans ?_
  show Gc m c _ = Gc m c _
  congr 1
  funext a
  apply Fin.ext
  match a with
  | ⟨0, _⟩ => show t.val = win0_2.index t (0 : Fin 3) * 1 + 1 * (j 0).val; have hj0 : (j 0).val < 1 := (j 0).isLt; omega
  | ⟨1, _⟩ => show (j 1).val = win0_2.index t (1 : Fin 3) * 2048 + 1 * (j 1).val; omega
  | ⟨2, _⟩ => show (j 2).val = win0_2.index t (2 : Fin 3) * 64 + 1 * (j 2).val; omega

/-- An index of the result array is in point `t`'s block iff each coordinate is in the block's range on its axis. -/
theorem mem_blk (t : Fin cfg0.N) (i : S8x2048x64.Idx) :
    i ∈ ((cfg0.win 2).blk t).view.set ↔ ∀ a : Fin 3, win0_2.index t a * S1x2048x64.size a ≤ (i a).val ∧ (i a).val < win0_2.index t a * S1x2048x64.size a + S1x2048x64.size a := by
  show i ∈ ((View.whole main_v1).slice (win0_2.rect t)).set ↔ _
  rw [View.set_slice_whole, Rect.mem_set_unit]
  exact Iff.rfl

/-- Every index of the result array is in the block of the point its batch coordinate names. -/
theorem covered (i : S8x2048x64.Idx) : ∃ t : Fin cfg0.N, (cfg0.win 2).flush t = true ∧ i ∈ ((cfg0.win 2).blk t).view.set := by
  have hN : cfg0.N = 8 := N_0
  have h0 : (i 0).val < 8 := (i 0).isLt
  have h1 : (i 1).val < 2048 := (i 1).isLt
  have h2 : (i 2).val < 64 := (i 2).isLt
  refine ⟨⟨(i 0).val, by omega⟩, flush0_2 _, ?_⟩
  rw [mem_blk]
  obtain ⟨e0, e1, e2⟩ := idx2 ⟨(i 0).val, by omega⟩
  intro a
  match a with
  | ⟨0, _⟩ => show win0_2.index _ (0 : Fin 3) * 1 ≤ (i 0).val ∧ (i 0).val < win0_2.index _ (0 : Fin 3) * 1 + 1; simp only at e0; omega
  | ⟨1, _⟩ => show win0_2.index _ (1 : Fin 3) * 2048 ≤ (i 1).val ∧ (i 1).val < win0_2.index _ (1 : Fin 3) * 2048 + 2048; omega
  | ⟨2, _⟩ => show win0_2.index _ (2 : Fin 3) * 64 ≤ (i 2).val ∧ (i 2).val < win0_2.index _ (2 : Fin 3) * 64 + 64; omega

/-- THE RESULT ARRAY after the run: the attention function of the argument arrays. -/
theorem final (c : Dev nD) (hr : RealArgs m c) : (dats m 0 c).arrAt 2 cfg0.N = Gc m c :=
  (dats m 0 c).arrAt_eq_of_cover 2 (Gc m c) (fun t _ => flushed_eq m c hr t) covered

/-- The run, read: the result array at `G` of the arguments, the arguments unchanged. -/
theorem run (hr : ∀ c, RealArgs m c) :
    θ_run defs (onTc (τ := τ) (main (F := Ideal))) ⟨m, fun _ => 0, ρ⟩ fun r => ∀ c : Dev nD,
      r.2.mem ((c.tc : Thread nD τ).loc main_v1) = Gc m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1 2).trans (final m c (hr c)),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.KernelIdeal.Final

end
-- ==== Proof.RefValue.lean ====
/-
  The reference program's result, read index by index: at the extended reals its composed term is the attention
  function `G` of the four argument arrays — three projections, the score matrix `K Qᵀ` scaled by 1/8, the causal
  mask, the row softmax (row maximum, exponentials, their sum, the quotient) and the product with the value
  projection.
-/
import proofs.«411072_j44074954392146_3_alg».proof.Proof.Gen.ReferenceIdeal.Run
import proofs.«411072_j44074954392146_3_alg».proof.Proof.Gen.ReferenceIdeal.Read
import proofs.«411072_j44074954392146_3_alg».proof.Proof.Spec
import Idealize.ShloMosaic.Lib.StableHlo.Predicate

noncomputable section

namespace Cert.RefValue

open Cert.ReferenceIdeal Cert.ReferenceIdeal.Gen Cert.ReferenceIdeal.Read
open Idealize.ShloMosaic Idealize.ShloMosaic.ValueIdx Cert.Attn

/-! ## The three constants -/

/-- The word of the scale is one eighth. -/
theorem ofBits_eighth : Ideal.ofBits .f32 0x3E000000#32 = c8 := by
  unfold c8
  simp [Ideal.ofBits, Ideal.ieee]
  rw [← EReal.coe_mul]
  exact congrArg Real.toEReal (by norm_num)

/-- The word of the mask's filler is `-∞`. -/
theorem ofBits_negInf : Ideal.ofBits .f32 0xFF800000#32 = (⊥ : EReal) := by
  simp [Ideal.ofBits, Ideal.ieee]

/-! ## The causal mask -/

/-- For positions below 2048 the signed comparison `t + 0 ≥ s` of their words holds exactly when `s ≤ t`. -/
theorem tril_bit (t s : Fin 2048) :
    IntOp.cmpi .sge (IntOp.addi (BitVec.ofNat 32 t.val) 0#32) (BitVec.ofNat 32 s.val) = 1#1 ↔ s.val ≤ t.val := by
  have ht : (BitVec.ofNat 32 t.val).toNat = t.val := by
    rw [BitVec.toNat_ofNat]; exact Nat.mod_eq_of_lt (by have := t.isLt; omega)
  have hs : (BitVec.ofNat 32 s.val).toNat = s.val := by
    rw [BitVec.toNat_ofNat]; exact Nat.mod_eq_of_lt (by have := s.isLt; omega)
  rw [show IntOp.addi (BitVec.ofNat 32 t.val) 0#32 = BitVec.ofNat 32 t.val from BitVec.add_zero _]
  rw [StableHlo.Predicate.sge_iff_toNat (by rw [ht]; have := t.isLt; omega) (by rw [hs]; have := s.isLt; omega), ht, hs]

/-- The lower-triangular mask at row `t`, column `s`. -/
theorem mask_apply (t s : Fin 2048) :
    val_main_v7 (F := Ideal) (ix2 t s) = if s.val ≤ t.val then 1#1 else 0#1 := by
  rw [val_main_v7_apply, val_main_call0_v4_apply, val_main_call0_v2_apply, val_main_call0_v0_apply, val_main_call0_v1_apply,
    val_main_call0_c_apply, val_main_call0_v3_apply, val_main_v6_apply, val_main_c_apply, val_main_call0_v5_apply,
    val_main_call0_c_0_apply]
  show Scalar.select (IntOp.cmpi .sge (IntOp.addi (BitVec.ofNat 32 t.val) 0#32) (BitVec.ofNat 32 s.val)) 1#1 0#1 = _
  by_cases h : s.val ≤ t.val
  · rw [if_pos h, (tril_bit t s).2 h, select_one]
  · rw [if_neg h, eq_zero_of_ne_one (fun e => h ((tril_bit t s).1 e)), select_zero]

/-! ## The projections -/

theorem lidx_proj (b : Fin 8) (t : Fin 2048) (h : Fin 64) (k : Fin 1024) : lidx_main_v0 (ix3 b t h) k = ix3 b t k :=
  funext fun a => Fin.ext (by match a with | ⟨0, _⟩ => rfl | ⟨1, _⟩ => rfl | ⟨2, _⟩ => rfl)

theorem ridx_proj (b : Fin 8) (t : Fin 2048) (h : Fin 64) (k : Fin 1024) : ridx_main_v0 (ix3 b t h) k = ix2 k h :=
  funext fun a => Fin.ext (by match a with | ⟨0, _⟩ => rfl | ⟨1, _⟩ => rfl)

/-- The input against a weight array, at row `t` of batch `b` and column `h`, is the projection. -/
theorem proj0_apply (x0 : (⟨S8x2048x1024, .f32⟩ : BufTy).Contents (Elt Ideal)) (w : (⟨S1024x64, .f32⟩ : BufTy).Contents (Elt Ideal))
    (b : Fin 8) (t : Fin 2048) (h : Fin 64) : val_main_v0 (F := Ideal) x0 w (ix3 b t h) = proj x0 w b t h := by
  rw [val_main_v0_apply]
  unfold proj
  refine Finset.sum_congr rfl fun k _ => ?_
  rw [lidx_proj, ridx_proj]

theorem proj1_apply (x0 : (⟨S8x2048x1024, .f32⟩ : BufTy).Contents (Elt Ideal)) (w : (⟨S1024x64, .f32⟩ : BufTy).Contents (Elt Ideal))
    (b : Fin 8) (t : Fin 2048) (h : Fin 64) : val_main_v1 (F := Ideal) x0 w (ix3 b t h) = proj x0 w b t h :=
  proj0_apply x0 w b t h

theorem proj2_apply (x0 : (⟨S8x2048x1024, .f32⟩ : BufTy).Contents (Elt Ideal)) (w : (⟨S1024x64, .f32⟩ : BufTy).Contents (Elt Ideal))
    (b : Fin 8) (t : Fin 2048) (h : Fin 64) : val_main_v2 (F := Ideal) x0 w (ix3 b t h) = proj x0 w b t h :=
  proj0_apply x0 w b t h

/-! ## The scaled scores -/

theorem lidx_score (b : Fin 8) (t s : Fin 2048) (k : Fin 64) : lidx_main_v3 (ix3 b t s) k = ix3 b t k :=
  funext fun a => Fin.ext (by match a with | ⟨0, _⟩ => rfl | ⟨1, _⟩ => rfl | ⟨2, _⟩ => rfl)

theorem ridx_score (b : Fin 8) (t s : Fin 2048) (k : Fin 64) : ridx_main_v3 (ix3 b t s) k = ix3 b s k :=
  funext fun a => Fin.ext (by match a with | ⟨0, _⟩ => rfl | ⟨1, _⟩ => rfl | ⟨2, _⟩ => rfl)

/-- Row `t` of `K` against row `s` of `Q`, scaled. -/
theorem score_apply (x0 : (⟨S8x2048x1024, .f32⟩ : BufTy).Contents (Elt Ideal)) (x1 x2 : (⟨S1024x64, .f32⟩ : BufTy).Contents (Elt Ideal))
    (b : Fin 8) (t s : Fin 2048) :
    val_main_v5 (F := Ideal) x0 x1 x2 (ix3 b t s) = (∑ h : Fin 64, proj x0 x2 b t h * proj x0 x1 b s h) * c8 := by
  rw [val_main_v5_apply, val_main_v3_apply, val_main_v4_apply, val_main_cst_apply, Ideal.mulf_def, Ideal.ofBits_def, ofBits_eighth]
  refine congrArg (· * c8) (Finset.sum_congr rfl fun k _ => ?_)
  rw [lidx_score, ridx_score, proj1_apply, proj0_apply]

/-! ## The masked scores -/

theorem idx_mask (b : Fin 8) (t s : Fin 2048) : idx_main_call1_v1 (ix3 b t s) = ix2 t s :=
  funext fun a => Fin.ext (by match a with | ⟨0, _⟩ => rfl | ⟨1, _⟩ => rfl)

/-- The masked score of row `t` of batch `b` against position `s`. -/
theorem masked_apply (x0 : (⟨S8x2048x1024, .f32⟩ : BufTy).Contents (Elt Ideal)) (x1 x2 : (⟨S1024x64, .f32⟩ : BufTy).Contents (Elt Ideal))
    (b : Fin 8) (t s : Fin 2048) :
    val_main_v8 (F := Ideal) x0 x1 x2 (ix3 b t s)
      = mscore (fun s h => proj x0 x2 b s h) (fun s h => proj x0 x1 b s h) t s := by
  rw [val_main_v8_apply, val_main_call1_v1_apply, idx_mask, mask_apply, score_apply, val_main_call1_v2_apply,
    val_main_call1_v0_apply, val_main_cst_0_apply, Ideal.ofBits_def, ofBits_negInf]
  unfold mscore
  by_cases h : s.val ≤ t.val
  · rw [if_pos h, if_pos h, select_one]
  · rw [if_neg h, if_neg h, select_zero]

/-! ## The row maximum -/

/-- The last axis of an [8, 2048, 2048] array drops to [8, 2048]. -/
theorem reduces_last : S8x2048x2048.Reduces [2] S8x2048 := by decide

/-- Row `(b, t)` with the position `k` put back on the last axis. -/
theorem lift_last (b : Fin 8) (t : Fin 2048) (k : Fin 2048) : reduces_last.lift (ix2 b t) k = ix3 b t k :=
  funext fun a => Fin.ext (by match a with | ⟨0, _⟩ => rfl | ⟨1, _⟩ => rfl | ⟨2, _⟩ => rfl)

/-- From `-∞` the maximum-reduction over the last axis is, at row `(b, t)`, the maximum of that row. -/
theorem hostMax_last (x : FVec Ideal S8x2048x2048 .f32) (b : Fin 8) (t : Fin 2048) :
    Host.reduce FloatOps.maximumf x (constant (F := Ideal) S_ .f32 0xFF800000#32) reducesTo_S8x2048x2048_S8x2048_d2 h_S_ (ix2 b t)
      = (Finset.univ : Finset (Fin 2048)).fold max ⊥ (fun s => x (ix3 b t s)) := by
  rw [Host.reduce_eq_fold_single FloatOps.maximumf x _ reducesTo_S8x2048x2048_S8x2048_d2 reduces_last h_S_]
  have hf : (x ∘ reduces_last.lift (ix2 b t)) = fun s : Fin 2048 => x (ix3 b t s) :=
    funext fun k => congrArg x (lift_last b t k)
  refine (congrArg (fun f => Finset.fold max (Ideal.ofBits .f32 0xFF800000#32) f (Finset.univ : Finset (Fin 2048))) hf).trans ?_
  rw [ofBits_negInf]

/-- The maximum of the masked scores of row `t` of batch `b`. -/
theorem rowmax_apply (x0 : (⟨S8x2048x1024, .f32⟩ : BufTy).Contents (Elt Ideal)) (x1 x2 : (⟨S1024x64, .f32⟩ : BufTy).Contents (Elt Ideal))
    (b : Fin 8) (t : Fin 2048) :
    val_main_v11 (F := Ideal) x0 x1 x2 (ix2 b t)
      = (Finset.univ : Finset (Fin 2048)).fold max ⊥
          (fun s => mscore (fun s h => proj x0 x2 b s h) (fun s h => proj x0 x1 b s h) t s) := by
  rw [val_main_v11_apply, val_main_v10_apply, val_main_cst_2_apply, Ideal.maximumf_def, Ideal.ofBits_def, ofBits_negInf, max_bot_left]
  unfold val_main_v9 val_main_cst_1
  rw [hostMax_last]
  exact congrArg (fun f => Finset.fold max ⊥ f (Finset.univ : Finset (Fin 2048))) (funext fun s => masked_apply x0 x1 x2 b t s)

/-! ## The exponentials, their sum and the weights -/

theorem idx_keep (b : Fin 8) (t s : Fin 2048) : idx_main_v12 (idx_main_v13 (ix3 b t s)) = ix2 b t :=
  funext fun a => Fin.ext (by match a with | ⟨0, _⟩ => rfl | ⟨1, _⟩ => rfl)

theorem idx_keep' (b : Fin 8) (t s : Fin 2048) : idx_main_v17 (idx_main_v18 (ix3 b t s)) = ix2 b t :=
  funext fun a => Fin.ext (by match a with | ⟨0, _⟩ => rfl | ⟨1, _⟩ => rfl)

theorem idx_row (b : Fin 8) (t : Fin 2048) (k : Fin 2048) : idx_main_v16 (ix2 b t) k = ix3 b t k :=
  funext fun a => Fin.ext (by match a with | ⟨0, _⟩ => rfl | ⟨1, _⟩ => rfl | ⟨2, _⟩ => rfl)

/-- The exponential of a masked score less the row's maximum. -/
theorem exp_apply (x0 : (⟨S8x2048x1024, .f32⟩ : BufTy).Contents (Elt Ideal)) (x1 x2 : (⟨S1024x64, .f32⟩ : BufTy).Contents (Elt Ideal))
    (b : Fin 8) (t s : Fin 2048) :
    val_main_v15 (F := Ideal) x0 x1 x2 (ix3 b t s)
      = Ideal.exp (mscore (fun s h => proj x0 x2 b s h) (fun s h => proj x0 x1 b s h) t s
          - (Finset.univ : Finset (Fin 2048)).fold max ⊥
              (fun s => mscore (fun s h => proj x0 x2 b s h) (fun s h => proj x0 x1 b s h) t s)) := by
  rw [val_main_v15_apply, val_main_v14_apply, val_main_v13_apply, val_main_v12_apply, idx_keep, Ideal.hostUnary_exp_def,
    Ideal.subf_def, masked_apply, rowmax_apply]

/-- The sum of a row's exponentials. -/
theorem rowsum_apply (x0 : (⟨S8x2048x1024, .f32⟩ : BufTy).Contents (Elt Ideal)) (x1 x2 : (⟨S1024x64, .f32⟩ : BufTy).Contents (Elt Ideal))
    (b : Fin 8) (t : Fin 2048) :
    val_main_v16 (F := Ideal) x0 x1 x2 (ix2 b t)
      = ∑ k : Fin 2048, Ideal.exp (mscore (fun s h => proj x0 x2 b s h) (fun s h => proj x0 x1 b s h) t k
          - (Finset.univ : Finset (Fin 2048)).fold max ⊥
              (fun s => mscore (fun s h => proj x0 x2 b s h) (fun s h => proj x0 x1 b s h) t s)) := by
  rw [val_main_v16_apply, val_main_cst_3_apply, Ideal.ofBits_def, Ideal.ofBits_zero_f32, zero_add]
  refine Finset.sum_congr rfl fun k _ => ?_
  rw [idx_row, exp_apply]

/-- The normalised weight of position `s` in row `t` of batch `b`. -/
theorem weight_apply (x0 : (⟨S8x2048x1024, .f32⟩ : BufTy).Contents (Elt Ideal)) (x1 x2 : (⟨S1024x64, .f32⟩ : BufTy).Contents (Elt Ideal))
    (b : Fin 8) (t s : Fin 2048) :
    val_main_v19 (F := Ideal) x0 x1 x2 (ix3 b t s)
      = Ideal.div
          (Ideal.exp (mscore (fun s h => proj x0 x2 b s h) (fun s h => proj x0 x1 b s h) t s
            - (Finset.univ : Finset (Fin 2048)).fold max ⊥
                (fun s => mscore (fun s h => proj x0 x2 b s h) (fun s h => proj x0 x1 b s h) t s)))
          (∑ k : Fin 2048, Ideal.exp (mscore (fun s h => proj x0 x2 b s h) (fun s h => proj x0 x1 b s h) t k
            - (Finset.univ : Finset (Fin 2048)).fold max ⊥
                (fun s => mscore (fun s h => proj x0 x2 b s h) (fun s h => proj x0 x1 b s h) t s))) := by
  rw [val_main_v19_apply, val_main_v18_apply, val_main_v17_apply, idx_keep', Ideal.hostDivf_def, exp_apply, rowsum_apply]

/-! ## The result -/

theorem lidx_out (b : Fin 8) (t : Fin 2048) (h : Fin 64) (k : Fin 2048) : lidx_main_v20 (ix3 b t h) k = ix3 b t k :=
  funext fun a => Fin.ext (by match a with | ⟨0, _⟩ => rfl | ⟨1, _⟩ => rfl | ⟨2, _⟩ => rfl)

theorem ridx_out (b : Fin 8) (t : Fin 2048) (h : Fin 64) (k : Fin 2048) : ridx_main_v20 (ix3 b t h) k = ix3 b k h :=
  funext fun a => Fin.ext (by match a with | ⟨0, _⟩ => rfl | ⟨1, _⟩ => rfl | ⟨2, _⟩ => rfl)

/-- The reference's last stage is `G` of the arguments. -/
theorem ref_value (x0 : (⟨S8x2048x1024, .f32⟩ : BufTy).Contents (Elt Ideal)) (x1 x2 x3 : (⟨S1024x64, .f32⟩ : BufTy).Contents (Elt Ideal)) :
    (val_main_v20 (F := Ideal) x0 x1 x2 x3 : S8x2048x64.Idx → EReal) = G x0 x1 x2 x3 := by
  funext i
  obtain ⟨b, t, h, rfl⟩ : ∃ (b : Fin 8) (t : Fin 2048) (h : Fin 64), i = ix3 b t h := ⟨i 0, i 1, i 2, eq_ix3 i⟩
  rw [val_main_v20_apply]
  show _ = refOut (n := 2048) (fun s => mscore (fun s h => proj x0 x2 b s h) (fun s h => proj x0 x1 b s h) t s)
    (fun s => proj x0 x3 b s h)
  unfold refOut
  refine Finset.sum_congr rfl fun k _ => ?_
  rw [lidx_out, ridx_out, weight_apply, proj2_apply]

end Cert.RefValue

end
-- ==== Proof.Finite.lean ====
/-
  The precondition read: where the printed predicate `finite_inputs` is all ones at the extended reals, every entry
  of each of the four argument arrays is a real number (its absolute value is below `+∞`).
-/
import proofs.«411072_j44074954392146_3_alg».proof.Pre_finite_inputs
import proofs.«411072_j44074954392146_3_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Finite

open Idealize.ShloMosaic Cert.Pre_finite_inputs

/-- The rank-0 shape has exactly one index. -/
instance : Subsingleton S_.Idx := ⟨fun a b => funext fun d => d.elim0⟩

/-- A truth value printed as a one-bit word is the word 1 exactly when it is true. -/
theorem ofBool_eq_one_iff (b : Bool) : BitVec.ofBool b = 1#1 ↔ b = true := by cases b <;> decide

/-- The f32 word `0x7F800000` (all-ones exponent, zero fraction, sign clear) reads as `+∞`. -/
theorem inf_word_eq_top : Ideal.ofBits .f32 0x7F800000#32 = (⊤ : EReal) := by
  simp [Ideal.ofBits, Ideal.ieee]

/-- On one value: if `|x| < +∞` holds as a comparison at the extended reals, then `x` is a real.
    `|x|` is `max x (-x)`; at `x = ⊤` it is `⊤`, and at `x = ⊥` it is `-⊥ = ⊤`, neither below `⊤`. -/
theorem real_of_abs_lt_inf (x : Ideal .f32)
    (h : FloatOps.cmpf .olt (FloatOps.hostAbsf x) (FloatOps.ofBits (F := Ideal) .f32 0x7F800000#32) = 1#1) :
    ∃ r : ℝ, x = (r : EReal) := by
  have h' : Ideal.cmp .olt (max (x : EReal) (-(x : EReal))) (Ideal.ofBits .f32 0x7F800000#32) = 1#1 := h
  rw [inf_word_eq_top] at h'
  unfold Ideal.cmp at h'
  have hlt : max (x : EReal) (-(x : EReal)) < ⊤ := by
    have := (ofBool_eq_one_iff _).1 h'
    exact of_decide_eq_true this
  induction x using EReal.rec with
  | bot => simp at hlt
  | coe r => exact ⟨r, rfl⟩
  | top => simp at hlt

/-- One `all (|a| < +∞)`: where the reduction by `and` of the entrywise comparison to a single word is 1,
    every entry of `a` is a real. -/
theorem real_of_all {s : Shape} {axes : List (Fin s.rank)} (a : FVec Ideal s .f32)
    (bc : S_.BroadcastsInDim s (![] : Fin 0 → Fin s.rank)) (hr : s.ReducesTo axes S_) (hS : 0 < S_.numel)
    (h : Host.reduce IntOp.andi
          (cmpf .olt (Host.absf a) (broadcastInDim s ![] bc (constant (F := Ideal) S_ .f32 0x7F800000#32)))
          (constantI S_ 1 1#1) hr hS ValueIdx.ix0 = 1#1) :
    ∀ i, ∃ r : ℝ, a i = (r : EReal) := by
  intro i
  have e := Host.reduce_andi_all _ _ hr hS _ h i
  exact real_of_abs_lt_inf (a i) e

variable [Cert.Pre_finite_inputs.Facts]

/-- Under the precondition at the extended reals every argument entry is real. -/
theorem real_of_pre (a0 : FVec Ideal S8x2048x1024 .f32) (a1 a2 a3 : FVec Ideal S1024x64 .f32)
    (h : Cert.Pre_finite_inputs.fn (F := Ideal) a0 a1 a2 a3 = (fun _ => 1#1)) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal)) := by
  have h0 := congrFun h ValueIdx.ix0
  dsimp only [fn, fn_part1] at h0
  -- the predicate is ((p0 ∧ p1) ∧ p2) ∧ p3 on one-bit words, read at the single index
  obtain ⟨h012, h3⟩ := IntOp.andi_eq_one.1 h0
  obtain ⟨h01, h2⟩ := IntOp.andi_eq_one.1 h012
  obtain ⟨h0', h1⟩ := IntOp.andi_eq_one.1 h01
  exact ⟨real_of_all a0 _ _ _ h0', real_of_all a1 _ _ _ h1, real_of_all a2 _ _ _ h2, real_of_all a3 _ _ _ h3⟩

end Cert.Finite

end
-- ==== Proof.lean ====
/-
  The certificate of the fused causal-attention kernel against its reference, over the extended reals.

  The kernel computes, per batch, the three projections of the input by the fused weight array into scratch arrays, then
  for each of four row tiles runs the tile-by-tile softmax recurrence over the column tiles up to the diagonal: scores
  `(K · 1/8) Qᵀ`, the diagonal tile masked, a running row maximum started at the named constant standing for `-∞`, the
  sums of weights and of weighted value rows rescaled whenever the maximum moves, and a final quotient. The reference
  computes `softmax (mask (K Qᵀ · 1/8)) V` in one pass. At the extended reals, for real inputs, both are the function
  `Cert.Attn.G`: the recurrence's quotient is the one-pass softmax-weighted sum (the online law), the scale moves across
  the inner product, and masked positions weigh `exp ⊥ = 0`.

  The frames of the two kernel programs are one run of the body at symbolic operands under the pipeline library's launch
  theorem, the fused weight array found as the concatenation the one host operation before the region leaves; the
  reference's frame is its generated run; the idealization's eight rewrites are all the one named constant.
-/
import proofs.«411072_j44074954392146_3_alg».proof.Defs
import proofs.«411072_j44074954392146_3_alg».proof.Proof.Gen.Kernel
import proofs.«411072_j44074954392146_3_alg».proof.Proof.Gen.KernelIdeal
import proofs.«411072_j44074954392146_3_alg».proof.Proof.Gen.ReferenceIdeal
import proofs.«411072_j44074954392146_3_alg».proof.Proof.Gen.Pre_finite_inputs
import proofs.«411072_j44074954392146_3_alg».proof.Proof.Gen.ReferenceIdeal.Run
import proofs.«411072_j44074954392146_3_alg».proof.Proof.Gen.ReferenceIdeal.Read
import proofs.«411072_j44074954392146_3_alg».proof.Proof.BodyK
import proofs.«411072_j44074954392146_3_alg».proof.Proof.FinalI
import proofs.«411072_j44074954392146_3_alg».proof.Proof.RefValue
import proofs.«411072_j44074954392146_3_alg».proof.Proof.Finite
import Idealize.ShloMosaic.PureOps.IdealRules
import Idealize.ShloMosaic.Adequacy
import Idealize.ShloMosaic.Init

noncomputable section

namespace Cert.Proof

open Idealize.ShloMosaic Idealize.SL.Sem

theorem frame_k : Cert.frame_Kernel := fun m ρ _ => Cert.Kernel.Kit.frame m ρ

theorem frame_ki : Cert.frame_KernelIdeal := fun m ρ _ => Cert.KernelIdeal.Kit.frame m ρ

theorem frame_ri : Cert.frame_ReferenceIdeal := fun m ρ _ =>
  (θ_run Cert.ReferenceIdeal.defs _ _).mono (fun _ h c => (h c).2) (Cert.ReferenceIdeal.Value.run (F := Ideal) m ρ)

/-- The one named constant: the table gives `"neg_big"` the value `⊥`, and the printed constant is that value. -/
theorem neg_big_statement : IdealRules.named_const.Statement Cert.KernelIdeal.κ "neg_big" .f32 0xFF333332#32 ⊥ :=
  IdealRules.named_const.statement Cert.KernelIdeal.κ "neg_big" .f32 0xFF333332#32 ⊥ rfl

theorem preserves : Cert.preserves_Kernel_KernelIdeal :=
  ⟨neg_big_statement, neg_big_statement, neg_big_statement, neg_big_statement, neg_big_statement, neg_big_statement,
    neg_big_statement, neg_big_statement⟩

/-- Both programs end with the attention function `G` of the (real) argument arrays in their result. -/
theorem algebraic : Cert.algebraic_KernelIdeal_ReferenceIdeal := by
  intro m ρ m' ρ' hpre hagree
  have hr : ∀ c, Cert.KernelIdeal.Final.RealArgs m c := fun c => Cert.Finite.real_of_pre _ _ _ _ (hpre c)
  refine ⟨fun c => Cert.KernelIdeal.Final.Gc m c, Cert.KernelIdeal.Final.run m ρ hr, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.RefValue.ref_value, (hagree c).1, (hagree c).2.1, (hagree c).2.2.1,
    (hagree c).2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
